-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000 : Shape := ⟨1, ![300000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S300000 : S_.BroadcastsInDim S300000 (![] : Fin 0 → Fin S300000.rank)
  reducesTo_S300000_S_d0 : S300000.ReducesTo [0] S_

variable [Facts]

def fn_part2 {F : FTy → Type} [FloatOps F] (main_arg3 : IVec S300000 32) (main_v32 : IVec S_ 1) (main_c_12 : IVec S_ 32) : IVec S_ 1 :=
  let main_v33 : IVec S300000 32 := broadcastInDim S300000 ![] bcast_S_S300000 main_c_12
  let main_v34 : IVec S300000 1 := cmpi .sge main_arg3 main_v33
  let main_c_13 : IVec S_ 1 := constantI S_ 1 1#1
  let main_v35 : IVec S_ 1 := (fun x v => Host.reduce IntOp.andi x v reducesTo_S300000_S_d0 h_S_) main_v34 main_c_13
  let main_v36 : IVec S_ 1 := andi main_v32 main_v35
  main_v36

def fn_part1 {F : FTy → Type} [FloatOps F] (main_arg2 : IVec S300000 32) (main_arg3 : IVec S300000 32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S300000 32 := broadcastInDim S300000 ![] bcast_S_S300000 main_c_10
  let main_v30 : IVec S300000 1 := cmpi .sge main_arg2 main_v29
  let main_c_11 : IVec S_ 1 := constantI S_ 1 1#1
  let main_v31 : IVec S_ 1 := (fun x v => Host.reduce IntOp.andi x v reducesTo_S300000_S_d0 h_S_) main_v30 main_c_11
  let main_v32 : IVec S_ 1 := andi main_v28 main_v31
  let main_c_12 : IVec S_ 32 := constantI S_ 32 0#32
  fn_part2 (F := F) main_arg3 main_v32 main_c_12

def fn {F : FTy → Type} [FloatOps F] (main_arg0 : FVec F S100000x128 .f32) (main_arg1 : FVec F S100000x128 .f32) (main_arg2 : IVec S300000 32) (main_arg3 : IVec S300000 32) (main_arg4 : FVec F S256x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_v13 main_v16
-- ==== Kernel.lean ====
abbrev S100000x128 : Shape := ⟨2, ![100000, 128]⟩
abbrev S300000 : Shape := ⟨1, ![300000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S303104 : Shape := ⟨1, ![303104]⟩
abbrev S303104x1 : Shape := ⟨2, ![303104, 1]⟩
abbrev S1x1 : Shape := ⟨2, ![1, 1]⟩
abbrev S303104x64 : Shape := ⟨2, ![303104, 64]⟩
abbrev S1x303104 : Shape := ⟨2, ![1, 303104]⟩
abbrev S8192x64 : Shape := ⟨2, ![8192, 64]⟩
abbrev S1x8192 : Shape := ⟨2, ![1, 8192]⟩
abbrev S1x64 : Shape := ⟨2, ![1, 64]⟩
abbrev S1x300000 : Shape := ⟨2, ![1, 300000]⟩
abbrev S300000x1 : Shape := ⟨2, ![300000, 1]⟩

abbrev nBuf : Space → Nat
  | .hbm => 84
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S300000, .i32⟩
  | .hbm, ⟨3, _⟩ => ⟨S300000, .i32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S128x64, .f32⟩
  | .hbm, ⟨9, _⟩ => ⟨S128x64, .f32⟩
  | .hbm, ⟨10, _⟩ => ⟨S100000x64, .f32⟩
  | .hbm, ⟨11, _⟩ => ⟨S100000x64, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S300000, .i32⟩
  | .hbm, ⟨16, _⟩ => ⟨S300000, .i32⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S_, .i32⟩
  | .hbm, ⟨29, _⟩ => ⟨S_, .i32⟩
  | .hbm, ⟨30, _⟩ => ⟨S303104, .i32⟩
  | .hbm, ⟨31, _⟩ => ⟨S_, .i32⟩
  | .hbm, ⟨32, _⟩ => ⟨S_, .i32⟩
  | .hbm, ⟨33, _⟩ => ⟨S303104, .i32⟩
  | .hbm, ⟨34, _⟩ => ⟨S_, .i32⟩
  | .hbm, ⟨35, _⟩ => ⟨S303104, .i32⟩
  | .hbm, ⟨36, _⟩ => ⟨S303104, .i1⟩
  | .hbm, ⟨37, _⟩ => ⟨S_, .i32⟩
  | .hbm, ⟨38, _⟩ => ⟨S303104, .i32⟩
  | .hbm, ⟨39, _⟩ => ⟨S303104, .i32⟩
  | .hbm, ⟨40, _⟩ => ⟨S303104, .i32⟩
  | .hbm, ⟨41, _⟩ => ⟨S303104x1, .i32⟩
  | .hbm, ⟨42, _⟩ => ⟨S1, .i32⟩
  | .hbm, ⟨43, _⟩ => ⟨S_, .i32⟩
  | .hbm, ⟨44, _⟩ => ⟨S303104x1, .i32⟩
  | .hbm, ⟨45, _⟩ => ⟨S303104x1, .i1⟩
  | .hbm, ⟨46, _⟩ => ⟨S1x1, .i32⟩
  | .hbm, ⟨47, _⟩ => ⟨S303104x1, .i32⟩
  | .hbm, ⟨48, _⟩ => ⟨S303104x1, .i1⟩
  | .hbm, ⟨49, _⟩ => ⟨S303104x1, .i1⟩
  | .hbm, ⟨50, _⟩ => ⟨S_, .i1⟩
  | .hbm, ⟨51, _⟩ => ⟨S303104, .i1⟩
  | .hbm, ⟨52, _⟩ => ⟨S303104x64, .f32⟩
  | .hbm, ⟨53, _⟩ => ⟨S303104x64, .i1⟩
  | .hbm, ⟨54, _⟩ => ⟨S_, .f32⟩
  | .hbm, ⟨55, _⟩ => ⟨S303104x64, .f32⟩
  | .hbm, ⟨56, _⟩ => ⟨S303104x64, .f32⟩
  | .hbm, ⟨57, _⟩ => ⟨S_, .i32⟩
  | .hbm, ⟨58, _⟩ => ⟨S303104, .i32⟩
  | .hbm, ⟨59, _⟩ => ⟨S303104, .i1⟩
  | .hbm, ⟨60, _⟩ => ⟨S_, .i32⟩
  | .hbm, ⟨61, _⟩ => ⟨S303104, .i32⟩
  | .hbm, ⟨62, _⟩ => ⟨S303104, .i32⟩
  | .hbm, ⟨63, _⟩ => ⟨S303104, .i32⟩
  | .hbm, ⟨64, _⟩ => ⟨S303104x1, .i32⟩
  | .hbm, ⟨65, _⟩ => ⟨S1, .i32⟩
  | .hbm, ⟨66, _⟩ => ⟨S_, .i32⟩
  | .hbm, ⟨67, _⟩ => ⟨S303104x1, .i32⟩
  | .hbm, ⟨68, _⟩ => ⟨S303104x1, .i1⟩
  | .hbm, ⟨69, _⟩ => ⟨S1x1, .i32⟩
  | .hbm, ⟨70, _⟩ => ⟨S303104x1, .i32⟩
  | .hbm, ⟨71, _⟩ => ⟨S303104x1, .i1⟩
  | .hbm, ⟨72, _⟩ => ⟨S303104x1, .i1⟩
  | .hbm, ⟨73, _⟩ => ⟨S_, .i1⟩
  | .hbm, ⟨74, _⟩ => ⟨S303104, .i1⟩
  | .hbm, ⟨75, _⟩ => ⟨S303104x64, .f32⟩
  | .hbm, ⟨76, _⟩ => ⟨S303104x64, .i1⟩
  | .hbm, ⟨77, _⟩ => ⟨S_, .f32⟩
  | .hbm, ⟨78, _⟩ => ⟨S303104x64, .f32⟩
  | .hbm, ⟨79, _⟩ => ⟨S303104x64, .f32⟩
  | .hbm, ⟨80, _⟩ => ⟨S1x303104, .f32⟩
  | .hbm, ⟨81, _⟩ => ⟨S1x300000, .f32⟩
  | .hbm, ⟨82, _⟩ => ⟨S300000, .f32⟩
  | .hbm, ⟨83, _⟩ => ⟨S300000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S64, .f32⟩
  | .local _ .vmem, ⟨15, _⟩ => ⟨S64x1, .f32⟩
  | .local _ .vmem, ⟨16, _⟩ => ⟨S1, .f32⟩
  | .local _ .vmem, ⟨17, _⟩ => ⟨S1x8192, .f32⟩
  | .local _ .vmem, ⟨18, _⟩ => ⟨S1x8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v4 : Ref sig .tc := ⟨.hbm, 27, rfl⟩
abbrev main_c_3 : Ref sig .tc := ⟨.hbm, 28, rfl⟩
abbrev main_call2_v0 : Ref sig .tc := ⟨.hbm, 29, rfl⟩
abbrev main_v5 : Ref sig .tc := ⟨.hbm, 30, rfl⟩
abbrev main_c_4 : Ref sig .tc := ⟨.hbm, 31, rfl⟩
abbrev main_call3_v0 : Ref sig .tc := ⟨.hbm, 32, rfl⟩
abbrev main_v6 : Ref sig .tc := ⟨.hbm, 33, rfl⟩
abbrev main_call4_c : Ref sig .tc := ⟨.hbm, 34, rfl⟩
abbrev main_call4_v0 : Ref sig .tc := ⟨.hbm, 35, rfl⟩
abbrev main_call4_v1 : Ref sig .tc := ⟨.hbm, 36, rfl⟩
abbrev main_call4_c_0 : Ref sig .tc := ⟨.hbm, 37, rfl⟩
abbrev main_call4_v2 : Ref sig .tc := ⟨.hbm, 38, rfl⟩
abbrev main_call4_v3 : Ref sig .tc := ⟨.hbm, 39, rfl⟩
abbrev main_call4_v4 : Ref sig .tc := ⟨.hbm, 40, rfl⟩
abbrev main_call4_v5 : Ref sig .tc := ⟨.hbm, 41, rfl⟩
abbrev main_call4_c_1 : Ref sig .tc := ⟨.hbm, 42, rfl⟩
abbrev main_call4_c_2 : Ref sig .tc := ⟨.hbm, 43, rfl⟩
abbrev main_call4_v6 : Ref sig .tc := ⟨.hbm, 44, rfl⟩
abbrev main_call4_v7 : Ref sig .tc := ⟨.hbm, 45, rfl⟩
abbrev main_call4_v8 : Ref sig .tc := ⟨.hbm, 46, rfl⟩
abbrev main_call4_v9 : Ref sig .tc := ⟨.hbm, 47, rfl⟩
abbrev main_call4_v10 : Ref sig .tc := ⟨.hbm, 48, rfl⟩
abbrev main_call4_v11 : Ref sig .tc := ⟨.hbm, 49, rfl⟩
abbrev main_call4_c_3 : Ref sig .tc := ⟨.hbm, 50, rfl⟩
abbrev main_call4_v12 : Ref sig .tc := ⟨.hbm, 51, rfl⟩
abbrev main_call4_v13 : Ref sig .tc := ⟨.hbm, 52, rfl⟩
abbrev main_call4_v14 : Ref sig .tc := ⟨.hbm, 53, rfl⟩
abbrev main_call4_cst : Ref sig .tc := ⟨.hbm, 54, rfl⟩
abbrev main_call4_v15 : Ref sig .tc := ⟨.hbm, 55, rfl⟩
abbrev main_v7 : Ref sig .tc := ⟨.hbm, 56, rfl⟩
abbrev main_call5_c : Ref sig .tc := ⟨.hbm, 57, rfl⟩
abbrev main_call5_v0 : Ref sig .tc := ⟨.hbm, 58, rfl⟩
abbrev main_call5_v1 : Ref sig .tc := ⟨.hbm, 59, rfl⟩
abbrev main_call5_c_0 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_v5 : Ref sig .tc := ⟨.hbm, 64, rfl⟩
abbrev main_call5_c_1 : Ref sig .tc := ⟨.hbm, 65, rfl⟩
abbrev main_call5_c_2 : Ref sig .tc := ⟨.hbm, 66, rfl⟩
abbrev main_call5_v6 : Ref sig .tc := ⟨.hbm, 67, rfl⟩
abbrev main_call5_v7 : Ref sig .tc := ⟨.hbm, 68, rfl⟩
abbrev main_call5_v8 : Ref sig .tc := ⟨.hbm, 69, rfl⟩
abbrev main_call5_v9 : Ref sig .tc := ⟨.hbm, 70, rfl⟩
abbrev main_call5_v10 : Ref sig .tc := ⟨.hbm, 71, rfl⟩
abbrev main_call5_v11 : Ref sig .tc := ⟨.hbm, 72, rfl⟩
abbrev main_call5_c_3 : Ref sig .tc := ⟨.hbm, 73, rfl⟩
abbrev main_call5_v12 : Ref sig .tc := ⟨.hbm, 74, rfl⟩
abbrev main_call5_v13 : Ref sig .tc := ⟨.hbm, 75, rfl⟩
abbrev main_call5_v14 : Ref sig .tc := ⟨.hbm, 76, rfl⟩
abbrev main_call5_cst : Ref sig .tc := ⟨.hbm, 77, rfl⟩
abbrev main_call5_v15 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S256x64_S128x64_0_0 : S256x64.Slices ![0, 0] S128x64
  slices_S256x64_S128x64_128_0 : S256x64.Slices ![128, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S300000 : S_.BroadcastsInDim S300000 (![] : Fin 0 → Fin S300000.rank)
  pads_S300000_S303104_031040 : S300000.Pads (![0] : Fin 1 → Nat) ![3104] ![0] S303104
  h_S_ : 0 < S_.numel
  bcast_S_S303104 : S_.BroadcastsInDim S303104 (![] : Fin 0 → Fin S303104.rank)
  bcast_S303104_S303104x1_0 : S303104.BroadcastsInDim S303104x1 (![0] : Fin 1 → Fin S303104x1.rank)
  bcast_S_S303104x1 : S_.BroadcastsInDim S303104x1 (![] : Fin 0 → Fin S303104x1.rank)
  bcast_S1_S1x1_1 : S1.BroadcastsInDim S1x1 (![1] : Fin 1 → Fin S1x1.rank)
  bcast_S1x1_S303104x1_0_1 : S1x1.BroadcastsInDim S303104x1 (![0, 1] : Fin 2 → Fin S303104x1.rank)
  reducesTo_S303104x1_S303104_d1 : S303104x1.ReducesTo [1] S303104
  bcast_S303104_S303104x64_0 : S303104.BroadcastsInDim S303104x64 (![0] : Fin 1 → Fin S303104x64.rank)
  bcast_S_S303104x64 : S_.BroadcastsInDim S303104x64 (![] : Fin 0 → Fin S303104x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  slices_S1x303104_S1x300000_0_0 : S1x303104.Slices ![0, 0] S1x300000
  shapeCasts_S1x300000_S300000 : S1x300000.ShapeCasts S300000
  shapeCasts_S300000_S300000x1 : S300000.ShapeCasts S300000x1
  dot_S5000x128_S128x64_S5000x64_1_0_0_1_n_n_wf : DotDims.WF S5000x128 S128x64 S5000x64 [1] [0] [0] [1] [] []
  gather_S100000x64_S303104x1_S303104x64_1_0_n_n_0_1_164_wf : GatherDims.WF S100000x64 S303104x1 S303104x64 [1] [0] [] [0] [] 1 ![1, 64]
  dot_S64x1_S8192x64_S1x8192_0_1_1_0_n_n_wf : DotDims.WF S64x1 S8192x64 S1x8192 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S303104x64.size a
  hwx1_0 : ∀ i : grid1.Coords, EltTy.bits .f32 = 32 ∨ (Rect.block (s := S303104x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S303104x64.size a
  hwx1_1 : ∀ i : grid1.Coords, EltTy.bits .f32 = 32 ∨ (Rect.block (s := S303104x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8192.size a ≤ S1x303104.size a
  hwx1_5 : ∀ i : grid1.Coords, EltTy.bits .f32 = 32 ∨ (Rect.block (s := S1x303104) S1x8192.size (cc1_transform_5 i) (hinb1_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S303104x1_S303104x64_1_0_n_n_0_1_164 : GatherDims S100000x64 S303104x1 S303104x64 where
  offsetDims := [1]
  collapsedSliceDims := [0]
  operandBatchingDims := []
  startIndicesBatchingDims := []
  startIndexMap := [0]
  indexVectorDim := 1
  sliceSizes := ![1, 64]
  wf := gather_S100000x64_S303104x1_S303104x64_1_0_n_n_0_1_164_wf
def dot_S64x1_S8192x64_S1x8192_0_1_1_0_n_n : DotDims S64x1 S8192x64 S1x8192 where
  lhsContracting := [0]
  rhsContracting := [1]
  lhsNonContracting := [1]
  rhsNonContracting := [0]
  lhsBatch := []
  rhsBatch := []
  wf := dot_S64x1_S8192x64_S1x8192_0_1_1_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S300000 : Shape := ⟨1, ![300000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S300000x1 : Shape := ⟨2, ![300000, 1]⟩
abbrev S300000x128 : Shape := ⟨2, ![300000, 128]⟩
abbrev S300000x256 : Shape := ⟨2, ![300000, 256]⟩
abbrev S300000x64 : Shape := ⟨2, ![300000, 64]⟩
abbrev S1x64 : Shape := ⟨2, ![1, 64]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S300000, .i32⟩
  | .hbm, ⟨3, _⟩ => ⟨S300000, .i32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S300000x128, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x128, .f32⟩
  | .hbm, ⟨26, _⟩ => ⟨S300000x256, .f32⟩
  | .hbm, ⟨27, _⟩ => ⟨S300000x64, .f32⟩
  | .hbm, ⟨28, _⟩ => ⟨S1x64, .f32⟩
  | .hbm, ⟨29, _⟩ => ⟨S300000x64, .f32⟩
  | .hbm, ⟨30, _⟩ => ⟨S300000x64, .f32⟩
  | .hbm, ⟨31, _⟩ => ⟨S_, .f32⟩
  | .hbm, ⟨32, _⟩ => ⟨S300000x64, .f32⟩
  | .hbm, ⟨33, _⟩ => ⟨S300000x64, .f32⟩
  | .hbm, ⟨34, _⟩ => ⟨S300000x1, .f32⟩
  | .hbm, ⟨35, _⟩ => ⟨S1x1, .f32⟩
  | .hbm, ⟨36, _⟩ => ⟨S300000x1, .f32⟩
  | .hbm, ⟨37, _⟩ => ⟨S300000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  gather_S100000x128_S300000x1_S300000x128_1_0_n_n_0_1_1128_wf : GatherDims.WF S100000x128 S300000x1 S300000x128 [1] [0] [] [0] [] 1 ![1, 128]
  dot_S300000x256_S256x64_S300000x64_1_0_0_1_n_n_wf : DotDims.WF S300000x256 S256x64 S300000x64 [1] [0] [0] [1] [] []
  dot_S300000x64_S64x1_S300000x1_1_0_0_1_n_n_wf : DotDims.WF S300000x64 S64x1 S300000x1 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf
def dot_S300000x64_S64x1_S300000x1_1_0_0_1_n_n : DotDims S300000x64 S64x1 S300000x1 where
  lhsContracting := [1]
  rhsContracting := [0]
  lhsNonContracting := [0]
  rhsNonContracting := [1]
  lhsBatch := []
  rhsBatch := []
  wf := dot_S300000x64_S64x1_S300000x1_1_0_0_1_n_n_wf

class Facts : Prop extends Facts₀ where

variable [Facts]
-- ==== Proof.RowIdx.lean ====
/-
  The row a 32-bit id selects in a table of 100000 rows, on the two sides.

  One side first clips the id into [0, 99999]; both sides then add 100000 to a negative id (the numpy reading of a
  negative index), and the gather that follows reads the result as a signed integer and clamps it into
  [0, 99999]. For an id that is not negative the two rows agree: the wrap does nothing on either side, and
  clamping min(id, 99999) is clamping id. (For an id in [-100000, -1] they do not: one side reads row 0, the other
  row id + 100000.)
-/
import Idealize.ShloMosaic.PureOps.Ideal
import Idealize.ShloMosaic.Lib.StableHlo.Predicate

noncomputable section

open Idealize.ShloMosaic

namespace Cert.RowIdx

/-- The id clipped into [0, 99999]: the larger of 0 and the id, then the smaller of 99999 and that. -/
def clipW (w : BitVec 32) : BitVec 32 := IntOp.minsi 99999#32 (IntOp.maxsi 0#32 w)

/-- A negative id counts from the end: 100000 is added to it; any other id is kept. -/
def wrapW (w : BitVec 32) : BitVec 32 := Scalar.select (IntOp.cmpi .slt w 0#32) (IntOp.addi w 100000#32) w

theorem toInt_zero : (0#32 : BitVec 32).toInt = 0 := by decide
theorem toInt_top : (99999#32 : BitVec 32).toInt = 99999 := by decide

/-- The signed comparison "id ≥ 0" holding says the id, read signed, is not negative. -/
theorem nonneg_of_sge {w : BitVec 32} (h : IntOp.cmpi .sge w 0#32 = 1#1) : 0 ≤ w.toInt := by
  unfold IntOp.cmpi at h
  have hb : (0#32 : BitVec 32).sle w = true := (StableHlo.Predicate.ofBool_eq_one_iff _).1 h
  rw [BitVec.sle, decide_eq_true_eq, toInt_zero] at hb
  exact hb

/-- Clipping a non-negative id gives the smaller of the id and 99999. -/
theorem clipW_toInt (w : BitVec 32) (hw : 0 ≤ w.toInt) : (clipW w).toInt = min w.toInt 99999 := by
  have hmax : IntOp.maxsi 0#32 w = w := by
    unfold IntOp.maxsi
    split
    · rename_i hc
      rw [BitVec.slt, decide_eq_true_eq, toInt_zero] at hc
      omega
    · rfl
  unfold clipW
  rw [hmax]
  unfold IntOp.minsi
  split
  · rename_i hc
    rw [BitVec.slt, decide_eq_true_eq, toInt_top] at hc
    rw [toInt_top]; omega
  · rename_i hc
    rw [BitVec.slt, decide_eq_true_eq, toInt_top] at hc
    omega

/-- The wrap keeps an id that is not negative. -/
theorem wrapW_of_nonneg (w : BitVec 32) (hw : 0 ≤ w.toInt) : wrapW w = w := by
  unfold wrapW Scalar.select
  rw [if_neg]
  unfold IntOp.cmpi
  intro h
  have hb : w.slt 0#32 = true := (StableHlo.Predicate.ofBool_eq_one_iff _).1 h
  rw [BitVec.slt, decide_eq_true_eq, toInt_zero] at hb
  omega

/-- The clipped id is not negative. -/
theorem clipW_nonneg (w : BitVec 32) (hw : 0 ≤ w.toInt) : 0 ≤ (clipW w).toInt := by
  rw [clipW_toInt w hw]; omega

/-- THE ROWS AGREE for an id that is not negative. -/
theorem row_eq (w : BitVec 32) (hw : 0 ≤ w.toInt) :
    min (wrapW (clipW w)).toInt.toNat (100000 - 1) = min (wrapW w).toInt.toNat (100000 - 1) := by
  rw [wrapW_of_nonneg _ (clipW_nonneg w hw), wrapW_of_nonneg w hw, clipW_toInt w hw]
  omega

/-- The clipped id passes the range test 0 ≤ id ≤ 99999 that guards the gather. -/
theorem inRange_clip (w : BitVec 32) (hw : 0 ≤ w.toInt) :
    IntOp.andi (IntOp.cmpi .sge (wrapW (clipW w)) 0#32) (IntOp.cmpi .sle (wrapW (clipW w)) 99999#32) = 1#1 := by
  rw [wrapW_of_nonneg _ (clipW_nonneg w hw)]
  have h1 : IntOp.cmpi .sge (clipW w) 0#32 = 1#1 := by
    unfold IntOp.cmpi
    refine (StableHlo.Predicate.ofBool_eq_one_iff _).2 ?_
    show (0#32 : BitVec 32).sle (clipW w) = true
    rw [BitVec.sle, decide_eq_true_eq, toInt_zero]
    exact clipW_nonneg w hw
  have h2 : IntOp.cmpi .sle (clipW w) 99999#32 = 1#1 := by
    unfold IntOp.cmpi
    refine (StableHlo.Predicate.ofBool_eq_one_iff _).2 ?_
    show (clipW w).sle 99999#32 = true
    rw [BitVec.sle, decide_eq_true_eq, toInt_top, clipW_toInt w hw]
    omega
  rw [h1, h2]; decide

end Cert.RowIdx

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.TakeRead.lean ====
/-
  The gathered rows, read at one element.

  Between the two kernel launches the program turns an array of 300000 ids and a projected table [100000, 64] into
  an array [303104, 64]: the ids are clipped into [0, 99999], padded with zeros to 303104 entries, a negative entry
  would have 100000 added (none is negative any more), entries outside [0, 99999] would read as a not-a-number
  fill (none is outside), and row e of the result is the table's row at entry e, read signed and clamped.
  Here that chain is one function `takeRows` of the table and the ids, and `takeRows_apply` reads it at (e, j) for
  an edge e < 300000 whose id is not negative: it is the table at (row, j), with
  row = min (toNat (toInt (wrap (clip id)))) 99999, in `RowIdx`'s words.
-/
import proofs.«406294_j2688649527838_3_alg».proof.Proof.Gen.KernelIdeal
import proofs.«406294_j2688649527838_3_alg».proof.Proof.RowIdx
import proofs.«406294_j2688649527838_3_alg».proof.Proof.LibScatterRows
import Idealize.ShloMosaic.Lib.ValueIdx
import Idealize.ShloMosaic.Lib.Pipeline.Value
import Idealize.ShloMosaic.Lib.KernelVsHost
import Idealize.ShloMosaic.Lib.StableHlo.Predicate

noncomputable section

open Idealize.ShloMosaic Idealize.ShloMosaic.ValueIdx Idealize.ShloMosaic.StableHlo.Predicate

namespace Cert.KernelIdeal.Take

open Cert.KernelIdeal Cert.KernelIdeal.Gen Cert.RowIdx

variable {F : FTy → Type} [FloatOps F]

/-! ## The chain as functions of the ids -/

/-- The ids clipped into [0, 99999]. -/
def clipIds (ids : IVec S300000 32) : IVec S300000 32 :=
  minsi (broadcastInDim S300000 ![] bcast_S_S300000 (constantI S_ 32 99999#32))
    (maxsi (broadcastInDim S300000 ![] bcast_S_S300000 (constantI S_ 32 0#32)) ids)

/-- The clipped ids padded with zeros to 303104 entries. -/
def padIds (ids : IVec S300000 32) : IVec S303104 32 :=
  pad S303104 ![0] ![3104] ![0] (clipIds ids) (constantI S_ 32 0#32) pads_S300000_S303104_031040 h_S_

/-- 100000 added to the negative entries. -/
def wrapIds (p : IVec S303104 32) : IVec S303104 32 :=
  select (cmpi .slt p (broadcastInDim S303104 ![] bcast_S_S303104 (constantI S_ 32 0#32)))
    (addi p (broadcastInDim S303104 ![] bcast_S_S303104 (constantI S_ 32 100000#32))) p

/-- The start indices of the gather: the wrapped entries as a column. -/
def colIds (p : IVec S303104 32) : IVec S303104x1 32 :=
  broadcastInDim S303104x1 ![0] bcast_S303104_S303104x1_0 (wrapIds p)

/-- Per row: is its start index inside [0, 99999]? -/
def okIds (col : IVec S303104x1 32) : IVec S303104 1 :=
  Host.reduce IntOp.andi
    (andi (cmpi .sge col (broadcastInDim S303104x1 ![] bcast_S_S303104x1 (constantI S_ 32 0#32)))
      (cmpi .sle col (broadcastInDim S303104x1 ![0, 1] bcast_S1x1_S303104x1_0_1
        (broadcastInDim S1x1 ![1] bcast_S1_S1x1_1 (constantI S1 32 99999#32)))))
    (constantI S_ 1 1#1) reducesTo_S303104x1_S303104_d1 h_S_

/-- The gather from padded entries: row e of the table at start index e where that is in range, the fill elsewhere. -/
def takeCore (P : Vec F S100000x64 .f32) (p : IVec S303104 32) : Vec F S303104x64 .f32 :=
  select (broadcastInDim S303104x64 ![0] bcast_S303104_S303104x64_0 (okIds (colIds p)))
    (Host.gather gather_S100000x64_S303104x1_S303104x64_1_0_n_n_0_1_164 P (colIds p))
    (broadcastInDim S303104x64 ![] bcast_S_S303104x64 (constant S_ .f32 0x7FC00000#32))

/-- The gathered rows, from the ids. -/
def takeRows (P : Vec F S100000x64 .f32) (ids : IVec S300000 32) : Vec F S303104x64 .f32 :=
  takeCore P (padIds ids)

/-! ## Each step read at an entry -/

/-- A broadcast integer scalar reads the scalar everywhere. -/
theorem bc0 {w : Nat} (c : BitVec w) (s : Shape) (h : S_.BroadcastsInDim s ![]) (j : s.Idx) :
    broadcastInDim s ![] h (constantI S_ w c) j = c :=
  bcast_scalar h h_S_ _ j

theorem clipIds_apply (ids : IVec S300000 32) (i : S300000.Idx) : clipIds ids i = clipW (ids i) := by
  show IntOp.minsi (broadcastInDim S300000 ![] bcast_S_S300000 (constantI S_ 32 99999#32) i)
    (IntOp.maxsi (broadcastInDim S300000 ![] bcast_S_S300000 (constantI S_ 32 0#32) i) (ids i)) = _
  rw [bc0, bc0]; rfl

/-- Inside the first 300000 entries the padded array is the clipped id. -/
theorem padIds_inside (ids : IVec S300000 32) (e : Fin 300000) :
    padIds ids (ix1 (⟨e.val, by omega⟩ : Fin 303104)) = clipW (ids (ix1 e)) := by
  unfold padIds
  refine (pad_apply_of_inside _ _ _ (clipIds ids) _ pads_S300000_S303104_031040 h_S_ _ (ix1 e) (fun a => ?_)).trans
    (clipIds_apply ids (ix1 e))
  match a with
  | ⟨0, _⟩ => show e.val = 0 + e.val * (0 + 1); omega

/-- Past them it is the zero it was padded with. -/
theorem padIds_outside (ids : IVec S300000 32) (e' : Fin 303104) (h : 300000 ≤ e'.val) :
    padIds ids (ix1 e') = 0#32 := by
  unfold padIds
  refine (pad_apply_of_not_inside _ _ _ (clipIds ids) _ pads_S300000_S303104_031040 h_S_ _ (0 : Fin 1) (fun hin => ?_)).trans rfl
  have h3 : (e'.val - 0) / (0 + 1) < 300000 := hin.2.2
  omega

theorem wrapIds_apply (p : IVec S303104 32) (i : S303104.Idx) : wrapIds p i = wrapW (p i) := by
  show Scalar.select (IntOp.cmpi .slt (p i) (broadcastInDim S303104 ![] bcast_S_S303104 (constantI S_ 32 0#32) i))
    (IntOp.addi (p i) (broadcastInDim S303104 ![] bcast_S_S303104 (constantI S_ 32 100000#32) i)) (p i) = _
  rw [bc0, bc0]; rfl

theorem colIds_apply (p : IVec S303104 32) (e' : Fin 303104) : colIds p (ixP e') = wrapW (p (ix1 e')) := by
  unfold colIds
  refine (broadcastInDim_apply _ bcast_S303104_S303104x1_0 (wrapIds p) (ixP e') (ix1 e') (fun a => ?_)).trans
    (wrapIds_apply p (ix1 e'))
  match a with
  | ⟨0, _⟩ => show e'.val = if (303104 : Nat) = 1 then 0 else e'.val; rw [if_neg (by decide)]

/-- Every index of the column is a row's. -/
theorem eq_ixP (i : S303104x1.Idx) : i = ixP (⟨(i 0).val, idx2_lt0 i⟩ : Fin 303104) := by
  funext a
  match a with
  | ⟨0, _⟩ => rfl
  | ⟨1, _⟩ => exact Subsingleton.elim (α := Fin 1) _ _

/-- A fold of "and" from 1 over terms that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- When every entry of the id array is non-negative, every padded, wrapped start index is inside [0, 99999]. -/
theorem inRange_all (ids : IVec S300000 32) (hids : ∀ e : Fin 300000, 0 ≤ (ids (ix1 e)).toInt) (i : S303104x1.Idx) :
    andi (cmpi .sge (colIds (padIds ids)) (broadcastInDim S303104x1 ![] bcast_S_S303104x1 (constantI S_ 32 0#32)))
      (cmpi .sle (colIds (padIds ids)) (broadcastInDim S303104x1 ![0, 1] bcast_S1x1_S303104x1_0_1
        (broadcastInDim S1x1 ![1] bcast_S1_S1x1_1 (constantI S1 32 99999#32)))) i = 1#1 := by
  show IntOp.andi (IntOp.cmpi .sge (colIds (padIds ids) i) (broadcastInDim S303104x1 ![] bcast_S_S303104x1 (constantI S_ 32 0#32) i))
      (IntOp.cmpi .sle (colIds (padIds ids) i) (broadcastInDim S303104x1 ![0, 1] bcast_S1x1_S303104x1_0_1
        (broadcastInDim S1x1 ![1] bcast_S1_S1x1_1 (constantI S1 32 99999#32)) i)) = 1#1
  rw [bc0]
  have hb : broadcastInDim S303104x1 ![0, 1] bcast_S1x1_S303104x1_0_1
      (broadcastInDim S1x1 ![1] bcast_S1_S1x1_1 (constantI S1 32 99999#32)) i = 99999#32 := by
    simp only [broadcastInDim]; rfl
  rw [hb, eq_ixP i, colIds_apply]
  by_cases h : (i 0).val < 300000
  · have := padIds_inside ids ⟨(i 0).val, h⟩
    rw [show (⟨(⟨(i 0).val, h⟩ : Fin 300000).val, by omega⟩ : Fin 303104) = ⟨(i 0).val, idx2_lt0 i⟩ from rfl] at this
    rw [this]
    exact inRange_clip _ (hids _)
  · rw [padIds_outside ids _ (by show 300000 ≤ (i 0).val; omega)]
    decide

theorem okIds_one (ids : IVec S300000 32) (hids : ∀ e : Fin 300000, 0 ≤ (ids (ix1 e)).toInt) (j : S303104.Idx) :
    okIds (colIds (padIds ids)) j = 1#1 := by
  unfold okIds
  rw [Host.reduce_eq_foldl]
  exact foldl_andi_one _ _ fun n _ => inRange_all ids hids n

/-! ## The gathered rows at an element -/

/-- Row e (an edge, e < 300000) of the gathered rows is the table's row at the edge's id, clipped, wrapped, read
    signed and clamped; column j is column j. -/
theorem takeRows_apply (P : Vec F S100000x64 .f32) (ids : IVec S300000 32)
    (hids : ∀ e : Fin 300000, 0 ≤ (ids (ix1 e)).toInt) (e : Fin 300000) (j : Fin 64) :
    takeRows P ids (ix2 (⟨e.val, by omega⟩ : Fin 303104) j)
      = P (ix2 (⟨min (wrapW (clipW (ids (ix1 e)))).toInt.toNat (100000 - 1), by omega⟩ : Fin 100000) j) := by
  unfold takeRows takeCore
  rw [select_apply]
  have hok : broadcastInDim S303104x64 ![0] bcast_S303104_S303104x64_0 (okIds (colIds (padIds ids)))
      (ix2 (⟨e.val, by omega⟩ : Fin 303104) j) = 1#1 := by
    simp only [broadcastInDim]
    exact okIds_one ids hids _
  rw [hok, select_one]
  rw [Cert.ScatterRows.gather_rows gather_S100000x64_S303104x1_S303104x64_1_0_n_n_0_1_164 rfl rfl rfl rfl rfl rfl P _ _ j (by decide)]
  refine congrArg P (congrArg (fun r : Fin 100000 => ix2 r j) (Fin.ext ?_))
  show min (colIds (padIds ids) (ixP (⟨e.val, by omega⟩ : Fin 303104))).toInt.toNat (100000 - 1)
    = min (wrapW (clipW (ids (ix1 e)))).toInt.toNat (100000 - 1)
  rw [colIds_apply, padIds_inside ids e]

end Cert.KernelIdeal.Take

end
-- ==== Proof.Chain.lean ====
/-
  The buffer contents at the program's segment boundaries, followed from the second launch back to the arguments.

  The second launch is entered from the contents `W12`: ten host stretches run from the contents `W2` the first launch
  leaves. Read there: the two gathered arrays are `takeRows` of the first launch's two outputs and of the two id
  arguments; b1, W2, b2 are still the arguments. At `W2` the two outputs are what the first launch's pipeline leaves
  in windows 4 and 5, and every argument is as launched; the first launch is entered from `W1`, where the two halves
  of W1 are its row slices [0, 128) and [128, 256).
-/
import proofs.«406294_j2688649527838_3_alg».proof.Proof.Gen.KernelIdeal.Frame
import proofs.«406294_j2688649527838_3_alg».proof.Proof.TakeRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Take

variable {F : FTy → Type} [FloatOps F]
variable (m : (ℓ : Loc nD τ sig) → Buf (Elt F) ℓ) (ρ : Dev nD → PrngReg)

/-- A buffer that no operation of a host stretch writes keeps its contents over the stretch: closes
    `after ops V b = V b` for a literal stretch `ops` of the program, every write compared with `b`. -/
macro "skip_stretch" : tactic => `(tactic| (
  refine StableHlo.after_of_forall_not_mem _ _ (List.forall_iff_forall_mem.mp ?_)
  simp only [hostOps0, hostOps1, hostOps1_1, hostOps1_2, hostOps1_3, hostOps1_4, hostOps1_5, hostOps1_6, hostOps1_7,
    hostOps1_8, hostOps1_9, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- Walks a buffer's contents back over the stretches that do not write it, until the two sides name the same
    boundary. -/
macro "walk_back" : tactic => `(tactic| repeat (first | with_reducible rfl | (refine Eq.trans (by skip_stretch) ?_)))

/-- A value written to a buffer through its typed reference and read back through it is the value: the two
    transports along the buffer's type equation cancel. -/
theorem ofBuf_toBuf {T : BufTy} (x : TRef sig T) (v : T.Contents (Elt F)) : x.ofBuf (x.toBuf v) = v := by
  show cast _ (cast _ v) = v
  simp only [cast_cast, cast_eq]

/-! ## Stretch by stretch, from any contents -/

section Stretches
variable (V : Valuation τ sig (Elt F))

theorem const_c : (after hostOps1 V (Proc.devRef .tc main_c) : IVec S_ 32) = constantI S_ 32 0#32 := by
  dsimp only [hostOps1]; after_results <;> rfl
theorem const_c_0 : (after hostOps1 V (Proc.devRef .tc main_c_0) : IVec S_ 32) = constantI S_ 32 99999#32 := by
  dsimp only [hostOps1]; after_results <;> rfl
theorem const_c_1 : (after hostOps1_2 V (Proc.devRef .tc main_c_1) : IVec S_ 32) = constantI S_ 32 0#32 := by
  dsimp only [hostOps1_2]; after_results <;> rfl
theorem const_c_2 : (after hostOps1_2 V (Proc.devRef .tc main_c_2) : IVec S_ 32) = constantI S_ 32 99999#32 := by
  dsimp only [hostOps1_2]; after_results <;> rfl
theorem const_c_3 : (after hostOps1_4 V (Proc.devRef .tc main_c_3) : IVec S_ 32) = constantI S_ 32 0#32 := by
  dsimp only [hostOps1_4]; after_results <;> rfl
theorem const_c_4 : (after hostOps1_6 V (Proc.devRef .tc main_c_4) : IVec S_ 32) = constantI S_ 32 0#32 := by
  dsimp only [hostOps1_6]; after_results <;> rfl

/-- The clip of the source ids: the smaller of the upper bound and the larger of the lower bound and the id. -/
theorem clip_src :
    (after hostOps1_1 V (Proc.devRef .tc main_v3) : IVec S300000 32)
      = minsi (broadcastInDim S300000 ![] bcast_S_S300000 (V (Proc.devRef .tc main_c_0) : IVec S_ 32))
          (maxsi (broadcastInDim S300000 ![] bcast_S_S300000 (V (Proc.devRef .tc main_c) : IVec S_ 32))
            (V (Proc.devRef .tc main_arg2) : IVec S300000 32)) := by
  dsimp only [hostOps1_1]
  after_results
  simp only [ofBuf_toBuf]
  rfl

/-- The clip of the destination ids. -/
theorem clip_dst :
    (after hostOps1_3 V (Proc.devRef .tc main_v4) : IVec S300000 32)
      = minsi (broadcastInDim S300000 ![] bcast_S_S300000 (V (Proc.devRef .tc main_c_2) : IVec S_ 32))
          (maxsi (broadcastInDim S300000 ![] bcast_S_S300000 (V (Proc.devRef .tc main_c_1) : IVec S_ 32))
            (V (Proc.devRef .tc main_arg3) : IVec S300000 32)) := by
  dsimp only [hostOps1_3]
  after_results
  simp only [ofBuf_toBuf]
  rfl

/-- The clipped source ids padded to 303104 entries. -/
theorem pad_src :
    (after hostOps1_5 V (Proc.devRef .tc main_v5) : IVec S303104 32)
      = pad S303104 ![0] ![3104] ![0] (V (Proc.devRef .tc main_v3) : IVec S300000 32)
          (V (Proc.devRef .tc main_c_3) : IVec S_ 32) pads_S300000_S303104_031040 h_S_ := by
  dsimp only [hostOps1_5]
  after_results
  simp only [ofBuf_toBuf]
  rfl

/-- The clipped destination ids padded to 303104 entries. -/
theorem pad_dst :
    (after hostOps1_7 V (Proc.devRef .tc main_v6) : IVec S303104 32)
      = pad S303104 ![0] ![3104] ![0] (V (Proc.devRef .tc main_v4) : IVec S300000 32)
          (V (Proc.devRef .tc main_c_4) : IVec S_ 32) pads_S300000_S303104_031040 h_S_ := by
  dsimp only [hostOps1_7]
  after_results
  simp only [ofBuf_toBuf]
  rfl

set_option maxRecDepth 200000 in
set_option maxHeartbeats 1000000 in
/-- The rows of the first projected table gathered at the padded source entries. -/
theorem take_src :
    (after hostOps1_8 V (Proc.devRef .tc main_v7) : Vec F S303104x64 .f32)
      = takeCore (V (Proc.devRef .tc main_v2_0) : Vec F S100000x64 .f32) (V (Proc.devRef .tc main_v5) : IVec S303104 32) := by
  dsimp only [hostOps1_8]
  after_results
  simp only [ofBuf_toBuf]
  have e5 : ∀ h1 h2 h3, (TRef.of (T := ⟨S303104, .i32⟩) main_v5 h1 h2 h3).ofBuf (V (Proc.devRef .tc main_v5))
      = (V (Proc.devRef .tc main_v5) : IVec S303104 32) := fun _ _ _ => rfl
  have eP : ∀ h1 h2 h3, (TRef.of (T := ⟨S100000x64, .f32⟩) main_v2_0 h1 h2 h3).ofBuf (V (Proc.devRef .tc main_v2_0))
      = (V (Proc.devRef .tc main_v2_0) : Vec F S100000x64 .f32) := fun _ _ _ => rfl
  have eo : ∀ h1 h2 h3 (X : Vec F S303104x64 .f32), (TRef.of (T := ⟨S303104x64, .f32⟩) main_v7 h1 h2 h3).toBuf X = X :=
    fun _ _ _ _ => rfl
  simp only [e5, eP, eo]
  unfold takeCore okIds colIds wrapIds
  with_reducible rfl

set_option maxRecDepth 200000 in
set_option maxHeartbeats 1000000 in
/-- The rows of the second projected table gathered at the padded destination entries. -/
theorem take_dst :
    (after hostOps1_9 V (Proc.devRef .tc main_v8) : Vec F S303104x64 .f32)
      = takeCore (V (Proc.devRef .tc main_v2_1) : Vec F S100000x64 .f32) (V (Proc.devRef .tc main_v6) : IVec S303104 32) := by
  dsimp only [hostOps1_9]
  after_results
  simp only [ofBuf_toBuf]
  have e6 : ∀ h1 h2 h3, (TRef.of (T := ⟨S303104, .i32⟩) main_v6 h1 h2 h3).ofBuf (V (Proc.devRef .tc main_v6))
      = (V (Proc.devRef .tc main_v6) : IVec S303104 32) := fun _ _ _ => rfl
  have eP : ∀ h1 h2 h3, (TRef.of (T := ⟨S100000x64, .f32⟩) main_v2_1 h1 h2 h3).ofBuf (V (Proc.devRef .tc main_v2_1))
      = (V (Proc.devRef .tc main_v2_1) : Vec F S100000x64 .f32) := fun _ _ _ => rfl
  have eo : ∀ h1 h2 h3 (X : Vec F S303104x64 .f32), (TRef.of (T := ⟨S303104x64, .f32⟩) main_v8 h1 h2 h3).toBuf X = X :=
    fun _ _ _ _ => rfl
  simp only [e6, eP, eo]
  unfold takeCore okIds colIds wrapIds
  with_reducible rfl

end Stretches

/-! ## Along the program's boundaries -/

/-- The padded source entries at the second launch's take: the source ids clipped and padded. -/
theorem W10_v5 (c : Dev nD) :
    (W10 m ρ c (Proc.devRef .tc main_v5) : IVec S303104 32) = padIds (W2 m ρ c (Proc.devRef .tc main_arg2) : IVec S300000 32) := by
  have h0 : W10 m ρ c (Proc.devRef .tc main_v5) = W8 m ρ c (Proc.devRef .tc main_v5) := by walk_back
  have h1 : (W8 m ρ c (Proc.devRef .tc main_v5) : IVec S303104 32)
      = pad S303104 ![0] ![3104] ![0] (W7 m ρ c (Proc.devRef .tc main_v3) : IVec S300000 32)
          (W7 m ρ c (Proc.devRef .tc main_c_3) : IVec S_ 32) pads_S300000_S303104_031040 h_S_ := pad_src (W7 m ρ c)
  have h2 : W7 m ρ c (Proc.devRef .tc main_v3) = W4 m ρ c (Proc.devRef .tc main_v3) := by walk_back
  have h3 : (W7 m ρ c (Proc.devRef .tc main_c_3) : IVec S_ 32) = constantI S_ 32 0#32 := const_c_3 (W6 m ρ c)
  have h4 : (W4 m ρ c (Proc.devRef .tc main_v3) : IVec S300000 32)
      = minsi (broadcastInDim S300000 ![] bcast_S_S300000 (W3 m ρ c (Proc.devRef .tc main_c_0) : IVec S_ 32))
          (maxsi (broadcastInDim S300000 ![] bcast_S_S300000 (W3 m ρ c (Proc.devRef .tc main_c) : IVec S_ 32))
            (W3 m ρ c (Proc.devRef .tc main_arg2) : IVec S300000 32)) := clip_src (W3 m ρ c)
  have h5 : (W3 m ρ c (Proc.devRef .tc main_c) : IVec S_ 32) = constantI S_ 32 0#32 := const_c (W2 m ρ c)
  have h6 : (W3 m ρ c (Proc.devRef .tc main_c_0) : IVec S_ 32) = constantI S_ 32 99999#32 := const_c_0 (W2 m ρ c)
  have h7 : W3 m ρ c (Proc.devRef .tc main_arg2) = W2 m ρ c (Proc.devRef .tc main_arg2) := by walk_back
  rw [h0]
  refine h1.trans ?_
  rw [h2, h3]
  refine (congrArg (fun x : IVec S300000 32 => pad S303104 ![0] ![3104] ![0] x (constantI S_ 32 0#32) pads_S300000_S303104_031040 h_S_) (h4.trans ?_)).trans rfl
  rw [h5, h6, h7]
  rfl

/-- The padded destination entries. -/
theorem W11_v6 (c : Dev nD) :
    (W11 m ρ c (Proc.devRef .tc main_v6) : IVec S303104 32) = padIds (W2 m ρ c (Proc.devRef .tc main_arg3) : IVec S300000 32) := by
  have h0 : W11 m ρ c (Proc.devRef .tc main_v6) = W10 m ρ c (Proc.devRef .tc main_v6) := by walk_back
  have h1 : (W10 m ρ c (Proc.devRef .tc main_v6) : IVec S303104 32)
      = pad S303104 ![0] ![3104] ![0] (W9 m ρ c (Proc.devRef .tc main_v4) : IVec S300000 32)
          (W9 m ρ c (Proc.devRef .tc main_c_4) : IVec S_ 32) pads_S300000_S303104_031040 h_S_ := pad_dst (W9 m ρ c)
  have h2 : W9 m ρ c (Proc.devRef .tc main_v4) = W6 m ρ c (Proc.devRef .tc main_v4) := by walk_back
  have h3 : (W9 m ρ c (Proc.devRef .tc main_c_4) : IVec S_ 32) = constantI S_ 32 0#32 := const_c_4 (W8 m ρ c)
  have h4 : (W6 m ρ c (Proc.devRef .tc main_v4) : IVec S300000 32)
      = minsi (broadcastInDim S300000 ![] bcast_S_S300000 (W5 m ρ c (Proc.devRef .tc main_c_2) : IVec S_ 32))
          (maxsi (broadcastInDim S300000 ![] bcast_S_S300000 (W5 m ρ c (Proc.devRef .tc main_c_1) : IVec S_ 32))
            (W5 m ρ c (Proc.devRef .tc main_arg3) : IVec S300000 32)) := clip_dst (W5 m ρ c)
  have h5 : (W5 m ρ c (Proc.devRef .tc main_c_1) : IVec S_ 32) = constantI S_ 32 0#32 := const_c_1 (W4 m ρ c)
  have h6 : (W5 m ρ c (Proc.devRef .tc main_c_2) : IVec S_ 32) = constantI S_ 32 99999#32 := const_c_2 (W4 m ρ c)
  have h7 : W5 m ρ c (Proc.devRef .tc main_arg3) = W2 m ρ c (Proc.devRef .tc main_arg3) := by walk_back
  rw [h0]
  refine h1.trans ?_
  rw [h2, h3]
  refine (congrArg (fun x : IVec S300000 32 => pad S303104 ![0] ![3104] ![0] x (constantI S_ 32 0#32) pads_S300000_S303104_031040 h_S_) (h4.trans ?_)).trans rfl
  rw [h5, h6, h7]
  rfl

/-- The second launch's first gathered array. -/
theorem W12_v7 (c : Dev nD) :
    (W12 m ρ c (Proc.devRef .tc main_v7) : Vec F S303104x64 .f32)
      = takeRows (W2 m ρ c (Proc.devRef .tc main_v2_0) : Vec F S100000x64 .f32) (W2 m ρ c (Proc.devRef .tc main_arg2) : IVec S300000 32) := by
  have h0 : W12 m ρ c (Proc.devRef .tc main_v7) = W11 m ρ c (Proc.devRef .tc main_v7) := by walk_back
  have h1 : (W11 m ρ c (Proc.devRef .tc main_v7) : Vec F S303104x64 .f32)
      = takeCore (W10 m ρ c (Proc.devRef .tc main_v2_0) : Vec F S100000x64 .f32) (W10 m ρ c (Proc.devRef .tc main_v5) : IVec S303104 32) :=
    take_src (W10 m ρ c)
  have h2 : W10 m ρ c (Proc.devRef .tc main_v2_0) = W2 m ρ c (Proc.devRef .tc main_v2_0) := by walk_back
  rw [h0]
  refine h1.trans ?_
  rw [h2, W10_v5]
  rfl

/-- The second launch's second gathered array. -/
theorem W12_v8 (c : Dev nD) :
    (W12 m ρ c (Proc.devRef .tc main_v8) : Vec F S303104x64 .f32)
      = takeRows (W2 m ρ c (Proc.devRef .tc main_v2_1) : Vec F S100000x64 .f32) (W2 m ρ c (Proc.devRef .tc main_arg3) : IVec S300000 32) := by
  have h1 : (W12 m ρ c (Proc.devRef .tc main_v8) : Vec F S303104x64 .f32)
      = takeCore (W11 m ρ c (Proc.devRef .tc main_v2_1) : Vec F S100000x64 .f32) (W11 m ρ c (Proc.devRef .tc main_v6) : IVec S303104 32) :=
    take_dst (W11 m ρ c)
  have h2 : W11 m ρ c (Proc.devRef .tc main_v2_1) = W2 m ρ c (Proc.devRef .tc main_v2_1) := by walk_back
  refine h1.trans ?_
  rw [h2, W11_v6]
  rfl

/-- A buffer the ten stretches do not write is at the second launch what the first launch left. -/
theorem W12_arg5 (c : Dev nD) : W12 m ρ c (Proc.devRef .tc main_arg5) = W2 m ρ c (Proc.devRef .tc main_arg5) := by walk_back
theorem W12_arg6 (c : Dev nD) : W12 m ρ c (Proc.devRef .tc main_arg6) = W2 m ρ c (Proc.devRef .tc main_arg6) := by walk_back
theorem W12_arg7 (c : Dev nD) : W12 m ρ c (Proc.devRef .tc main_arg7) = W2 m ρ c (Proc.devRef .tc main_arg7) := by walk_back

/-- An argument the first launch only reads, or does not touch, is after it as launched. -/
theorem W2_arg (c : Dev nD) (b : Ref sig .tc) (hb : ∀ w, Pipeline.arrRef spec0 w ≠ b)
    (h0 : after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W2_arg2 (c : Dev nD) : W2 m ρ c (Proc.devRef .tc main_arg2) = m ((c : Thread nD τ).loc main_arg2) :=
  W2_arg m ρ c main_arg2 (by decide) (by skip_stretch)
theorem W2_arg3 (c : Dev nD) : W2 m ρ c (Proc.devRef .tc main_arg3) = m ((c : Thread nD τ).loc main_arg3) :=
  W2_arg m ρ c main_arg3 (by decide) (by skip_stretch)
theorem W2_arg5 (c : Dev nD) : W2 m ρ c (Proc.devRef .tc main_arg5) = m ((c : Thread nD τ).loc main_arg5) :=
  W2_arg m ρ c main_arg5 (by decide) (by skip_stretch)
theorem W2_arg6 (c : Dev nD) : W2 m ρ c (Proc.devRef .tc main_arg6) = m ((c : Thread nD τ).loc main_arg6) :=
  W2_arg m ρ c main_arg6 (by decide) (by skip_stretch)
theorem W2_arg7 (c : Dev nD) : W2 m ρ c (Proc.devRef .tc main_arg7) = m ((c : Thread nD τ).loc main_arg7) :=
  W2_arg m ρ c main_arg7 (by decide) (by skip_stretch)

/-- The first launch's two outputs, as the next boundary names them. -/
theorem W2_v2_0 (c : Dev nD) : W2 m ρ c (Proc.devRef .tc main_v2_0) = (dat0 (V1 m ρ) c).arrAt 4 cfg0.N := W2_arr m ρ c 4
theorem W2_v2_1 (c : Dev nD) : W2 m ρ c (Proc.devRef .tc main_v2_1) = (dat0 (V1 m ρ) c).arrAt 5 cfg0.N := W2_arr m ρ c 5

/-- The first launch reads the two tables as launched. -/
theorem V1_arg0 (c : Dev nD) : V1 m ρ c main_arg0 = m ((c : Thread nD τ).loc main_arg0) := by
  show after hostOps0 (W0 m ρ c) (Proc.devRef .tc main_arg0) = _
  exact (by skip_stretch : after hostOps0 (W0 m ρ c) (Proc.devRef .tc main_arg0) = W0 m ρ c (Proc.devRef .tc main_arg0))
theorem V1_arg1 (c : Dev nD) : V1 m ρ c main_arg1 = m ((c : Thread nD τ).loc main_arg1) := by
  show after hostOps0 (W0 m ρ c) (Proc.devRef .tc main_arg1) = _
  exact (by skip_stretch : after hostOps0 (W0 m ρ c) (Proc.devRef .tc main_arg1) = W0 m ρ c (Proc.devRef .tc main_arg1))

end Cert.KernelIdeal.Chain

end
-- ==== Proof.Spec.lean ====
/-
  Reading an array of extended reals at coordinates, and the two closed forms the proof is built around.

  The program computes, for every edge `e` and with `r e`, `r' e` the rows the two id arrays select,
    out[e] = Σ_j W2[j] · max( (P[r e, j] + P'[r' e, j]) + b1[j], 0 ) + b2,
    P[n, j] = Σ_{k<128} src[n, k] · W1[k, j],     P'[n, j] = Σ_{k<128} dst[n, k] · W1[128 + k, j],
  and the reference contracts the 256 concatenated columns at once. `sum_split` is the one law that joins them:
  a sum over 256 terms is the sum of its first 128 and its last 128 terms (addition of extended reals is
  commutative and associative; no finiteness is needed).
-/
import Idealize.ShloMosaic.Lib.ValueIdx

noncomputable section

open scoped BigOperators
open Idealize.ShloMosaic Idealize.ShloMosaic.ValueIdx

namespace Cert.Spec

/-- A rank-2 array of extended reals read at its two coordinates. -/
abbrev rd2 {a b : Nat} (x : (⟨2, ![a, b]⟩ : Shape).Idx → EReal) (i : Fin a) (j : Fin b) : EReal := x (ix2 i j)
/-- A rank-1 array of extended reals read at its coordinate. -/
abbrev rd1 {a : Nat} (x : (⟨1, ![a]⟩ : Shape).Idx → EReal) (i : Fin a) : EReal := x (ix1 i)

/-- A sum of 256 terms is the sum of the first 128 plus the sum of the last 128. -/
theorem sum_split (f : Fin 256 → EReal) :
    ∑ k : Fin 256, f k = ∑ k : Fin 128, f ⟨k.val, by omega⟩ + ∑ k : Fin 128, f ⟨k.val + 128, by omega⟩ := by
  have h := Fin.sum_univ_add (M := EReal) (a := 128) (b := 128) (fun i => f ⟨i.val, i.isLt⟩)
  simpa using h

end Cert.Spec

end
-- ==== Proof.ProjValue.lean ====
/-
  The first launch's two outputs as whole arrays.

  At grid point t the launch stores into rows [5000 t, 5000 t + 5000) of each output the product of the same rows of
  a table [100000, 128] with a whole weight matrix [128, 64] (the narrowing casts are the identity on extended
  reals; the product accumulates into zeros). The twenty row blocks tile the output, so after the last point output
  4 at (n, j) is Σ_{k<128} table0[n, k] · w0[k, j], and output 5 likewise from the second table and matrix
  (`proj_src`, `proj_dst`), for whatever contents the launch is entered from.
-/
import proofs.«406294_j2688649527838_3_alg».proof.Proof.Gen.KernelIdeal.Frame
import proofs.«406294_j2688649527838_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen Cert.Spec

variable (V : (c : Dev nD) → (b : Ref sig .tc) → Buf (Elt Ideal) ((c : Thread nD τ).loc b))

/-- The zero offsets of a whole-buffer access, as the constant function. -/
theorem zero_off : (![0, 0] : Fin 2 → Nat) = fun _ => 0 := funext fun a => by fin_cases a <;> rfl

/-! ## The contraction's operand indices, axis by axis -/

/-- The left operand's row is the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction position. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction position. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## One block's product, element by element -/

/-- A product of a 5000×128 block with a 128×64 matrix accumulated into zero, read at row p and column q,
    is the sum over the 128 contraction positions of the products of the operands' elements. -/
theorem matmul_block_apply (a : FVec Ideal S5000x128 .bf16) (w : FVec Ideal S128x64 .bf16) (p : Fin 5000) (q : Fin 64) :
    matmul (F := Ideal) dot_S5000x128_S128x64_S5000x64_1_0_0_1_n_n none a w (constant (F := Ideal) S5000x64 .f32 0x00000000#32) (ix2 p q)
      = ∑ k : Fin 128, a (ix2 p k) * w (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun x => Fin.ext (by
    match x with
    | ⟨0, _⟩ => exact lhs_row _ _
    | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun x => Fin.ext (by
    match x with
    | ⟨0, _⟩ => exact (rhs_row _ _).trans hk
    | ⟨1, _⟩ => exact rhs_col _ _)
  rw [el, er]

/-- The first payload at an index: the narrowing casts and the cast to the same shape are identities on
    extended reals, so it is the product of its two loaded blocks. -/
theorem pay1_apply (x0 : Vec Ideal S5000x128 .f32) (x2 : Vec Ideal S128x64 .f32) (p : Fin 5000) (q : Fin 64) :
    k0_pay1 (F := Ideal) x0 x2 (ix2 p q) = ∑ k : Fin 128, rd2 x0 p k * rd2 x2 k q := by
  unfold k0_pay1
  rw [shapeCast_self]
  exact matmul_block_apply _ _ p q

/-- The second payload at an index, likewise. -/
theorem pay2_apply (x1 : Vec Ideal S5000x128 .f32) (x3 : Vec Ideal S128x64 .f32) (p : Fin 5000) (q : Fin 64) :
    k0_pay2 (F := Ideal) x1 x3 (ix2 p q) = ∑ k : Fin 128, rd2 x1 p k * rd2 x3 k q := by
  unfold k0_pay2
  rw [shapeCast_self]
  exact matmul_block_apply _ _ p q

/-! ## The whole arrays -/

/-- The projected table of a 100000×128 table a and a 128×64 matrix w: row n, column j holds the sum over the 128
    contraction positions k of a[n,k]·w[k,j]. -/
def proj (a : S100000x128.Idx → EReal) (w : S128x64.Idx → EReal) : S100000x64.Idx → EReal :=
  fun i => ∑ k : Fin 128, rd2 a ⟨(i 0).val, idx2_lt0 i⟩ k * rd2 w k ⟨(i 1).val, idx2_lt1 i⟩

/-- The projected table read at an index. -/
theorem proj_apply (a : S100000x128.Idx → EReal) (w : S128x64.Idx → EReal) (i : S100000x64.Idx) :
    proj a w i = ∑ k : Fin 128, rd2 a ⟨(i 0).val, idx2_lt0 i⟩ k * rd2 w k ⟨(i 1).val, idx2_lt1 i⟩ := rfl

/-- The printed index maps over the 20 grid points: the two table windows and the two output windows sit at block
    row t, column block 0; the two weight windows are always the whole matrix. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back to output window 4 is block t of the projected table of the arrays the region finds:
    the loaded row block sits at rows 5000·t onward of its table, at the same rows as the stored block, and the
    weight block is the whole weight matrix. -/
theorem flushed4_eq (c : Dev nD) (t : Fin cfg0.N) :
    (dat0 (F := Ideal) V c).flushed 4 t
      = ((cfg0.win 4).blk t).view.read (Elt Ideal) (proj (V c main_arg0) (V c main_v0)) := by
  show (cfg0.win 4).cut (grid0.coords t) ((dat0 (F := Ideal) V c).after 4 t) = _
  rw [after0_4]
  unfold out0_4
  rw [View.canon_unit_zero zero_off]
  simp only [View.ld_unit_zero (S := S5000x128) zero_off, View.ld_unit_zero (S := S128x64) zero_off]
  obtain ⟨e00, e01, e10, e11, e20, e21, e30, e31, e40, e41, e50, e51⟩ := idx_facts t
  funext y
  obtain ⟨p, q, rfl⟩ : ∃ (p : Fin 5000) (q : Fin 64), y = ix2 p q := ⟨y 0, y 1, eq_ix2 y⟩
  show k0_pay1 (F := Ideal) (iblk0 V c 0 t) (iblk0 V c 2 t) (ix2 p q)
    = proj (V c main_arg0) (V c main_v0) (((cfg0.win 4).blk t).view.emb (ix2 p q))
  rw [pay1_apply, proj_apply]
  refine Finset.sum_congr rfl fun k _ => ?_
  have hl : rd2 (a := 5000) (b := 128) (iblk0 V c 0 t) p k
      = rd2 (V c main_arg0) ⟨((((cfg0.win 4).blk t).view.emb (ix2 p q)) 0).val, idx2_lt0 _⟩ k := by
    show V c main_arg0 (((cfg0.win 0).blk t).view.emb (ix2 p k)) = V c main_arg0 (ix2 _ k)
    refine congrArg _ (funext fun x => Fin.ext ?_)
    match x with
    | ⟨0, _⟩ =>
      show win0_0.index t (0 : Fin 2) * 5000 + 1 * p.val = win0_4.index t (0 : Fin 2) * 5000 + 1 * p.val
      omega
    | ⟨1, _⟩ =>
      show win0_0.index t (1 : Fin 2) * 128 + 1 * k.val = k.val
      omega
  have hw : rd2 (a := 128) (b := 64) (iblk0 V c 2 t) k q
      = rd2 (V c main_v0) k ⟨((((cfg0.win 4).blk t).view.emb (ix2 p q)) 1).val, idx2_lt1 _⟩ := by
    show V c main_v0 (((cfg0.win 2).blk t).view.emb (ix2 k q)) = V c main_v0 (ix2 k _)
    refine congrArg _ (funext fun x => Fin.ext ?_)
    match x with
    | ⟨0, _⟩ =>
      show win0_2.index t (0 : Fin 2) * 128 + 1 * k.val = k.val
      omega
    | ⟨1, _⟩ =>
      show win0_2.index t (1 : Fin 2) * 64 + 1 * q.val = win0_4.index t (1 : Fin 2) * 64 + 1 * q.val
      omega
  rw [hl, hw]

/-- What point t writes back to output window 5 is block t of the projected table of the arrays the region finds:
    the loaded row block sits at rows 5000·t onward of its table, at the same rows as the stored block, and the
    weight block is the whole weight matrix. -/
theorem flushed5_eq (c : Dev nD) (t : Fin cfg0.N) :
    (dat0 (F := Ideal) V c).flushed 5 t
      = ((cfg0.win 5).blk t).view.read (Elt Ideal) (proj (V c main_arg1) (V c main_v1)) := by
  show (cfg0.win 5).cut (grid0.coords t) ((dat0 (F := Ideal) V c).after 5 t) = _
  rw [after0_5]
  unfold out0_5
  rw [View.canon_unit_zero zero_off]
  simp only [View.ld_unit_zero (S := S5000x128) zero_off, View.ld_unit_zero (S := S128x64) zero_off]
  obtain ⟨e00, e01, e10, e11, e20, e21, e30, e31, e40, e41, e50, e51⟩ := idx_facts t
  funext y
  obtain ⟨p, q, rfl⟩ : ∃ (p : Fin 5000) (q : Fin 64), y = ix2 p q := ⟨y 0, y 1, eq_ix2 y⟩
  show k0_pay2 (F := Ideal) (iblk0 V c 1 t) (iblk0 V c 3 t) (ix2 p q)
    = proj (V c main_arg1) (V c main_v1) (((cfg0.win 5).blk t).view.emb (ix2 p q))
  rw [pay2_apply, proj_apply]
  refine Finset.sum_congr rfl fun k _ => ?_
  have hl : rd2 (a := 5000) (b := 128) (iblk0 V c 1 t) p k
      = rd2 (V c main_arg1) ⟨((((cfg0.win 5).blk t).view.emb (ix2 p q)) 0).val, idx2_lt0 _⟩ k := by
    show V c main_arg1 (((cfg0.win 1).blk t).view.emb (ix2 p k)) = V c main_arg1 (ix2 _ k)
    refine congrArg _ (funext fun x => Fin.ext ?_)
    match x with
    | ⟨0, _⟩ =>
      show win0_1.index t (0 : Fin 2) * 5000 + 1 * p.val = win0_5.index t (0 : Fin 2) * 5000 + 1 * p.val
      omega
    | ⟨1, _⟩ =>
      show win0_1.index t (1 : Fin 2) * 128 + 1 * k.val = k.val
      omega
  have hw : rd2 (a := 128) (b := 64) (iblk0 V c 3 t) k q
      = rd2 (V c main_v1) k ⟨((((cfg0.win 5).blk t).view.emb (ix2 p q)) 1).val, idx2_lt1 _⟩ := by
    show V c main_v1 (((cfg0.win 3).blk t).view.emb (ix2 k q)) = V c main_v1 (ix2 k _)
    refine congrArg _ (funext fun x => Fin.ext ?_)
    match x with
    | ⟨0, _⟩ =>
      show win0_3.index t (0 : Fin 2) * 128 + 1 * k.val = k.val
      omega
    | ⟨1, _⟩ =>
      show win0_3.index t (1 : Fin 2) * 64 + 1 * q.val = win0_5.index t (1 : Fin 2) * 64 + 1 * q.val
      omega
  rw [hl, hw]

/-- An index of output array 4 is in point t's block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v2_0).slice (win0_4.rect t)).set ↔ _
  rw [View.set_slice_whole, Rect.mem_set_unit]
  exact Iff.rfl

/-- Every index of output array 4 is in the block of the point numbered by its row divided by 5000. -/
theorem cover4 (i : S100000x64.Idx) :
    ∃ t : Fin cfg0.N, (cfg0.win 4).flush t = true ∧ i ∈ ((cfg0.win 4).blk t).view.set := by
  have hi0 : (i 0).val < 100000 := idx2_lt0 i
  have hi1 : (i 1).val < 64 := idx2_lt1 i
  refine ⟨⟨(i 0).val / 5000, by show (i 0).val / 5000 < 20; omega⟩, flush0_4 _, ?_⟩
  rw [mem_blk4]
  obtain ⟨e00, e01, e10, e11, e20, e21, e30, e31, e40, e41, e50, e51⟩ := idx_facts ⟨(i 0).val / 5000, by show (i 0).val / 5000 < 20; omega⟩
  have e40' : win0_4.index ⟨(i 0).val / 5000, by show (i 0).val / 5000 < 20; omega⟩ (0 : Fin 2) = (i 0).val / 5000 := e40
  intro a
  match a with
  | ⟨0, _⟩ =>
    show win0_4.index _ (0 : Fin 2) * 5000 ≤ (i 0).val ∧ (i 0).val < win0_4.index _ (0 : Fin 2) * 5000 + 5000
    omega
  | ⟨1, _⟩ =>
    show win0_4.index _ (1 : Fin 2) * 64 ≤ (i 1).val ∧ (i 1).val < win0_4.index _ (1 : Fin 2) * 64 + 64
    omega

/-- Output array 4 after the last point is the projected table. -/
theorem final4 (c : Dev nD) :
    (dat0 (F := Ideal) V c).arrAt 4 cfg0.N = proj (V c main_arg0) (V c main_v0) :=
  (dat0 (F := Ideal) V c).arrAt_eq_of_cover 4 _ (fun t _ => flushed4_eq V c t) cover4

/-- An index of output array 5 is in point t's block iff each coordinate is in the block's range on its axis. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v2_1).slice (win0_5.rect t)).set ↔ _
  rw [View.set_slice_whole, Rect.mem_set_unit]
  exact Iff.rfl

/-- Every index of output array 5 is in the block of the point numbered by its row divided by 5000. -/
theorem cover5 (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  refine ⟨⟨(i 0).val / 5000, by show (i 0).val / 5000 < 20; omega⟩, flush0_5 _, ?_⟩
  rw [mem_blk5]
  obtain ⟨e00, e01, e10, e11, e20, e21, e30, e31, e40, e41, e50, e51⟩ := idx_facts ⟨(i 0).val / 5000, by show (i 0).val / 5000 < 20; omega⟩
  have e50' : win0_5.index ⟨(i 0).val / 5000, by show (i 0).val / 5000 < 20; omega⟩ (0 : Fin 2) = (i 0).val / 5000 := e50
  intro a
  match a with
  | ⟨0, _⟩ =>
    show win0_5.index _ (0 : Fin 2) * 5000 ≤ (i 0).val ∧ (i 0).val < win0_5.index _ (0 : Fin 2) * 5000 + 5000
    omega
  | ⟨1, _⟩ =>
    show win0_5.index _ (1 : Fin 2) * 64 ≤ (i 1).val ∧ (i 1).val < win0_5.index _ (1 : Fin 2) * 64 + 64
    omega

/-- Output array 5 after the last point is the projected table. -/
theorem final5 (c : Dev nD) :
    (dat0 (F := Ideal) V c).arrAt 5 cfg0.N = proj (V c main_arg1) (V c main_v1) :=
  (dat0 (F := Ideal) V c).arrAt_eq_of_cover 5 _ (fun t _ => flushed5_eq V c t) cover5

/-! ## The two output arrays, element by element -/

theorem proj_src (c : Dev nD) (n : Fin 100000) (j : Fin 64) :
    rd2 ((dat0 (F := Ideal) V c).arrAt 4 cfg0.N) n j
      = ∑ k : Fin 128, rd2 (V c main_arg0) n k * rd2 (V c main_v0) k j := by
  rw [final4]
  rfl

theorem proj_dst (c : Dev nD) (n : Fin 100000) (j : Fin 64) :
    rd2 ((dat0 (F := Ideal) V c).arrAt 5 cfg0.N) n j
      = ∑ k : Fin 128, rd2 (V c main_arg1) n k * rd2 (V c main_v1) k j := by
  rw [final5]
  rfl

end Cert.KernelIdeal.Proj

end
-- ==== Proof.TailValue.lean ====
/-
  The second launch's output as a whole array.

  At grid point t the launch reads rows [8192 t, 8192 t + 8192) of two arrays [303104, 64], adds them and the bias b1
  along each row, takes the maximum with 0, and contracts the 64 columns against W2's one column, adding b2: a row
  vector stored into columns [8192 t, 8192 t + 8192) of the output [1, 303104]. The 37 column blocks tile the output,
  so after the last point the output at (0, e) is Σ_{j<64} W2[j, 0] · max((x0[e, j] + x1[e, j]) + b1[j], 0) + b2[0]
  (`tail_out`), for whatever contents the launch is entered from.
-/
import proofs.«406294_j2688649527838_3_alg».proof.Proof.Gen.KernelIdeal.Frame
import proofs.«406294_j2688649527838_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Spec

variable (V : (c : Dev nD) → (b : Ref sig .tc) → Buf (Elt Ideal) ((c : Thread nD τ).loc b))

/-! The contraction runs over the weights' axis 0 and the activations' axis 1: at output index `(u, q)` and contraction
    position `k` the weights are read at `(k, u)` and the activations at `(q, k)`. The four lemmas give these
    coordinates axis by axis. -/

theorem lhs_tail_0 (i : S1x8192.Idx) (q : dot_S64x1_S8192x64_S1x8192_0_1_1_0_n_n.contr.Idx) :
    (dot_S64x1_S8192x64_S1x8192_0_1_1_0_n_n.lhsIdx i q 0).val = (q ⟨0, by decide⟩).val :=
  dot_S64x1_S8192x64_S1x8192_0_1_1_0_n_n.lhsIdx_val_of_single rfl i q
theorem lhs_tail_1 (i : S1x8192.Idx) (q : dot_S64x1_S8192x64_S1x8192_0_1_1_0_n_n.contr.Idx) :
    (dot_S64x1_S8192x64_S1x8192_0_1_1_0_n_n.lhsIdx i q 1).val = (i 0).val := by
  unfold DotDims.lhsIdx
  rw [dif_neg (show ¬(1 : Fin S64x1.rank) ∈ dot_S64x1_S8192x64_S1x8192_0_1_1_0_n_n.lhsBatch by decide), dif_pos (show (1 : Fin S64x1.rank) ∈ dot_S64x1_S8192x64_S1x8192_0_1_1_0_n_n.lhsNonContracting by decide)]
  rfl
theorem rhs_tail_0 (i : S1x8192.Idx) (q : dot_S64x1_S8192x64_S1x8192_0_1_1_0_n_n.contr.Idx) :
    (dot_S64x1_S8192x64_S1x8192_0_1_1_0_n_n.rhsIdx i q 0).val = (i 1).val := by
  unfold DotDims.rhsIdx
  rw [dif_neg (show ¬(0 : Fin S8192x64.rank) ∈ dot_S64x1_S8192x64_S1x8192_0_1_1_0_n_n.rhsBatch by decide), dif_pos (show (0 : Fin S8192x64.rank) ∈ dot_S64x1_S8192x64_S1x8192_0_1_1_0_n_n.rhsNonContracting by decide)]
  rfl
theorem rhs_tail_1 (i : S1x8192.Idx) (q : dot_S64x1_S8192x64_S1x8192_0_1_1_0_n_n.contr.Idx) :
    (dot_S64x1_S8192x64_S1x8192_0_1_1_0_n_n.rhsIdx i q 1).val = (q ⟨0, by decide⟩).val :=
  dot_S64x1_S8192x64_S1x8192_0_1_1_0_n_n.rhsIdx_val_of_single rfl i q

/-- The activations: relu of the two row blocks added, plus the bias row. -/
abbrev act (x0 x1 : Vec Ideal S8192x64 .f32) (b1 : Vec Ideal S64 .f32) : FVec Ideal S8192x64 .bf16 :=
  truncf .bf16 (maximumf (addf (addf (shapeCast S8192x64 x0 shapeCasts_S8192x64_S8192x64) (shapeCast S8192x64 x1 shapeCasts_S8192x64_S8192x64))
    (broadcastTo S8192x64 (shapeCast S1x64 b1 shapeCasts_S64_S1x64) broadcasts_S1x64_S8192x64)) (broadcast S8192x64 (Scalar.ofBits (F := Ideal) .f32 0x00000000#32))) bitsLt_bf16_f32

theorem act_apply (x0 x1 : Vec Ideal S8192x64 .f32) (b1 : Vec Ideal S64 .f32) (p : Fin 8192) (j : Fin 64) :
    act x0 x1 b1 (ix2 p j) = max ((rd2 x0 p j + rd2 x1 p j) + rd1 b1 j) 0 := by
  unfold act
  rw [truncf_apply, maximumf_apply, addf_apply, addf_apply, shapeCast_self, shapeCast_self, broadcast_apply,
    broadcastTo_1b_ab_apply, shapeCast_a_1a_apply]
  show max _ (Ideal.ofBits .f32 0x00000000#32) = _
  rw [Ideal.ofBits_zero_f32]

/-- The payload read at a column: the weighted sum of that row's activations plus the output bias. -/
theorem pay_apply (x0 x1 : Vec Ideal S8192x64 .f32) (b1 : Vec Ideal S64 .f32) (w2 : Vec Ideal S64x1 .f32) (b2 : Vec Ideal S1 .f32)
    (u : Fin 1) (q : Fin 8192) :
    k1_pay1 (F := Ideal) x0 x1 b1 w2 b2 (ix2 u q)
      = (∑ j : Fin 64, rd2 w2 j (0 : Fin 1) * max ((rd2 x0 q j + rd2 x1 q j) + rd1 b1 j) 0) + rd1 b2 (0 : Fin 1) := by
  show addf (matmul dot_S64x1_S8192x64_S1x8192_0_1_1_0_n_n none (truncf .bf16 w2 bitsLt_bf16_f32) (act x0 x1 b1) (constant (F := Ideal) S1x8192 .f32 0x00000000#32))
      (broadcastTo S1x8192 (shapeCast S1x1 b2 shapeCasts_S1_S1x1) broadcasts_S1x1_S1x8192) (ix2 u q) = _
  rw [addf_apply]
  have hb : broadcastTo S1x8192 (shapeCast S1x1 b2 shapeCasts_S1_S1x1) broadcasts_S1x1_S1x8192 (ix2 u q) = rd1 b2 (0 : Fin 1) := by
    rw [broadcastTo_apply _ broadcasts_S1x1_S1x8192 (ix2 u q) (ix2 (0 : Fin 1) (0 : Fin 1)) (fun ax => by
      match ax with
      | ⟨0, _⟩ => rfl
      | ⟨1, _⟩ => rfl), shapeCast_a_1a_apply]
  rw [hb]
  congr 1
  simp only [matmul]
  rw [Ideal.matmul_constant_zero_apply, ← Equiv.sum_comp (ValueIdx.contrEquiv1 dot_S64x1_S8192x64_S1x8192_0_1_1_0_n_n 64 rfl rfl).symm]
  refine Finset.sum_congr rfl fun k _ => ?_
  have hk := ValueIdx.contrEquiv1_symm_val dot_S64x1_S8192x64_S1x8192_0_1_1_0_n_n 64 rfl rfl k
  have hu : u.val = 0 := by omega
  have el : dot_S64x1_S8192x64_S1x8192_0_1_1_0_n_n.lhsIdx (ix2 u q) ((ValueIdx.contrEquiv1 dot_S64x1_S8192x64_S1x8192_0_1_1_0_n_n 64 rfl rfl).symm k) = ix2 k (0 : Fin 1) := funext fun a => Fin.ext (by
    match a with
    | ⟨0, _⟩ => exact (lhs_tail_0 _ _).trans hk
    | ⟨1, _⟩ => exact (lhs_tail_1 _ _).trans hu)
  have er : dot_S64x1_S8192x64_S1x8192_0_1_1_0_n_n.rhsIdx (ix2 u q) ((ValueIdx.contrEquiv1 dot_S64x1_S8192x64_S1x8192_0_1_1_0_n_n 64 rfl rfl).symm k) = ix2 q k := funext fun a => Fin.ext (by
    match a with
    | ⟨0, _⟩ => exact rhs_tail_0 _ _
    | ⟨1, _⟩ => exact (rhs_tail_1 _ _).trans hk)
  rw [el, er, truncf_apply, act_apply]

theorem hz2 : (![0, 0] : Fin 2 → Nat) = fun _ => 0 := funext fun a => by fin_cases a <;> rfl
theorem hz1 : (![0] : Fin 1 → Nat) = fun _ => 0 := funext fun a => by fin_cases a <;> rfl

/-- The row vector's entry at column `e`, from the whole arrays. -/
abbrev tailAt (x0 x1 : S303104x64.Idx → EReal) (b1 : S64.Idx → EReal) (w2 : S64x1.Idx → EReal) (b2 : S1.Idx → EReal)
    (e : Fin 303104) : EReal :=
  (∑ j : Fin 64, rd2 w2 j (0 : Fin 1) * max ((rd2 x0 e j + rd2 x1 e j) + rd1 b1 j) 0) + rd1 b2 (0 : Fin 1)

/-- The whole output row as one function of the arrays, index by index. -/
abbrev G (x0 x1 : S303104x64.Idx → EReal) (b1 : S64.Idx → EReal) (w2 : S64x1.Idx → EReal) (b2 : S1.Idx → EReal) :
    S1x303104.Idx → EReal :=
  fun i => tailAt x0 x1 b1 w2 b2 ⟨(i 1).val, idx2_lt1 i⟩

/-- The payload's entry at a column of the block is the whole-array entry at column `e`, once each block's entries
    read there are the arrays' entries at row `e`. -/
theorem pay_congr (x0 x1 : Vec Ideal S8192x64 .f32) (b1 : Vec Ideal S64 .f32) (w2 : Vec Ideal S64x1 .f32) (b2 : Vec Ideal S1 .f32)
    (A0 A1 : S303104x64.Idx → EReal) (B1 : S64.Idx → EReal) (W2 : S64x1.Idx → EReal) (B2 : S1.Idx → EReal)
    (u : Fin 1) (q : Fin 8192) (e : Fin 303104)
    (h0 : ∀ j : Fin 64, x0 (ix2 q j) = rd2 A0 e j) (h1 : ∀ j : Fin 64, x1 (ix2 q j) = rd2 A1 e j)
    (h2 : ∀ j : Fin 64, b1 (ix1 j) = rd1 B1 j) (h3 : ∀ j : Fin 64, w2 (ix2 j (0 : Fin 1)) = rd2 W2 j (0 : Fin 1))
    (h4 : b2 (ix1 (0 : Fin 1)) = rd1 B2 (0 : Fin 1)) :
    k1_pay1 (F := Ideal) x0 x1 b1 w2 b2 (ix2 u q) = tailAt A0 A1 B1 W2 B2 e := by
  rw [pay_apply]
  show (∑ j : Fin 64, w2 (ix2 j (0 : Fin 1)) * max ((x0 (ix2 q j) + x1 (ix2 q j)) + b1 (ix1 j)) 0) + b2 (ix1 (0 : Fin 1)) = _
  simp only [h0, h1, h2, h3, h4]

/-- At every grid point the two row-block windows sit at the output's column block (below 37) and on their one
    column block, and the three small windows sit at block zero. -/
theorem idx_facts : ∀ t : Fin cfg1.N, win1_0.index t (0 : Fin 2) = win1_5.index t (1 : Fin 2)
    ∧ win1_0.index t (1 : Fin 2) = 0
    ∧ win1_1.index t (0 : Fin 2) = win1_5.index t (1 : Fin 2)
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) ≤ 36 :=
  (by decide +kernel : ∀ t : Fin grid1.N, _)

/-- The first row-block window at point `t` reads the rows of the first array under the output's column block. -/
theorem blk0_apply (c : Dev nD) (t : Fin cfg1.N) (q : Fin 8192) (j : Fin 64) (e : Fin 303104)
    (he : e.val = win1_5.index t (1 : Fin 2) * 8192 + q.val) :
    (iblk1 (F := Ideal) V c 0 t : Vec Ideal S8192x64 .f32) (ix2 q j) = rd2 (V c main_v7) e j := by
  obtain ⟨f0, f1, -⟩ := idx_facts t
  unfold iblk1
  rw [View.read_apply]
  show V c main_v7 _ = V c main_v7 _
  congr 1
  funext a
  apply Fin.ext
  match a with
  | ⟨0, _⟩ => show win1_0.index t (0 : Fin 2) * 8192 + 1 * q.val = e.val; omega
  | ⟨1, _⟩ => show win1_0.index t (1 : Fin 2) * 64 + 1 * j.val = j.val; omega

/-- The second row-block window at point `t` reads the same rows of the second array. -/
theorem blk1_apply (c : Dev nD) (t : Fin cfg1.N) (q : Fin 8192) (j : Fin 64) (e : Fin 303104)
    (he : e.val = win1_5.index t (1 : Fin 2) * 8192 + q.val) :
    (iblk1 (F := Ideal) V c 1 t : Vec Ideal S8192x64 .f32) (ix2 q j) = rd2 (V c main_v8) e j := by
  obtain ⟨-, -, f0, f1, -⟩ := idx_facts t
  unfold iblk1
  rw [View.read_apply]
  show V c main_v8 _ = V c main_v8 _
  congr 1
  funext a
  apply Fin.ext
  match a with
  | ⟨0, _⟩ => show win1_1.index t (0 : Fin 2) * 8192 + 1 * q.val = e.val; omega
  | ⟨1, _⟩ => show win1_1.index t (1 : Fin 2) * 64 + 1 * j.val = j.val; omega

/-- The hidden bias window is the whole bias vector at every point. -/
theorem blk2_apply (c : Dev nD) (t : Fin cfg1.N) (j : Fin 64) :
    (iblk1 (F := Ideal) V c 2 t : Vec Ideal S64 .f32) (ix1 j) = rd1 (V c main_arg5) j := by
  obtain ⟨-, -, -, -, f0, -⟩ := idx_facts t
  unfold iblk1
  rw [View.read_apply]
  show V c main_arg5 _ = V c main_arg5 _
  congr 1
  funext a
  apply Fin.ext
  match a with
  | ⟨0, _⟩ => show win1_2.index t (0 : Fin 1) * 64 + 1 * j.val = j.val; omega

/-- The output weights' window is the whole column of weights at every point. -/
theorem blk3_apply (c : Dev nD) (t : Fin cfg1.N) (j : Fin 64) (z : Fin 1) :
    (iblk1 (F := Ideal) V c 3 t : Vec Ideal S64x1 .f32) (ix2 j z) = rd2 (V c main_arg6) j z := by
  obtain ⟨-, -, -, -, -, f0, f1, -⟩ := idx_facts t
  unfold iblk1
  rw [View.read_apply]
  show V c main_arg6 _ = V c main_arg6 _
  congr 1
  funext a
  apply Fin.ext
  match a with
  | ⟨0, _⟩ => show win1_3.index t (0 : Fin 2) * 64 + 1 * j.val = j.val; omega
  | ⟨1, _⟩ => show win1_3.index t (1 : Fin 2) * 1 + 1 * z.val = z.val; omega

/-- The output bias window is the one-element bias at every point. -/
theorem blk4_apply (c : Dev nD) (t : Fin cfg1.N) (z : Fin 1) :
    (iblk1 (F := Ideal) V c 4 t : Vec Ideal S1 .f32) (ix1 z) = rd1 (V c main_arg7) z := by
  obtain ⟨-, -, -, -, -, -, -, f0, -⟩ := idx_facts t
  unfold iblk1
  rw [View.read_apply]
  show V c main_arg7 _ = V c main_arg7 _
  congr 1
  funext a
  apply Fin.ext
  match a with
  | ⟨0, _⟩ => show win1_4.index t (0 : Fin 1) * 1 + 1 * z.val = z.val; omega

/-- WHAT POINT `t` WRITES BACK is block `t` of `G` of the arrays as the region finds them. -/
theorem flushed_eq (c : Dev nD) (t : Fin cfg1.N) :
    (dat1 (F := Ideal) V c).flushed 5 t
      = ((cfg1.win 5).blk t).view.read (Elt Ideal) (G (V c main_v7) (V c main_v8) (V c main_arg5) (V c main_arg6) (V c main_arg7)) := by
  show (cfg1.win 5).cut (grid1.coords t) ((dat1 (F := Ideal) V c).after 5 t) = _
  rw [after1_5]
  unfold out1_5
  rw [View.canon_unit_zero hz2]
  simp only [View.ld_unit_zero (S := S8192x64) hz2, View.ld_unit_zero (S := S64) hz1, View.ld_unit_zero (S := S64x1) hz2,
    View.ld_unit_zero (S := S1) hz1]
  funext y
  obtain ⟨u, q, rfl⟩ : ∃ (u : Fin 1) (q : Fin 8192), y = ix2 u q := ⟨y 0, y 1, eq_ix2 y⟩
  obtain ⟨f0, f1, f2, f3, f4, f5, f6, f7, f8, f9⟩ := idx_facts t
  rw [View.read_apply]
  refine (pay_congr _ _ _ _ _ (V c main_v7) (V c main_v8) (V c main_arg5) (V c main_arg6) (V c main_arg7) u q
    ⟨win1_5.index t (1 : Fin 2) * 8192 + q.val, by omega⟩
    (fun j => blk0_apply V c t q j _ rfl) (fun j => blk1_apply V c t q j _ rfl) (fun j => blk2_apply V c t j)
    (fun j => blk3_apply V c t j 0) (blk4_apply V c t 0)).trans ?_
  show tailAt _ _ _ _ _ _ = tailAt _ _ _ _ _ _
  congr 1
  apply Fin.ext
  show win1_5.index t (1 : Fin 2) * 8192 + q.val = win1_5.index t (1 : Fin 2) * 8192 + 1 * q.val
  omega

/-- An index of the output row is in point `t`'s block iff each coordinate is in the block's range on its axis. -/
theorem mem_blk (t : Fin cfg1.N) (i : S1x303104.Idx) :
    i ∈ ((cfg1.win 5).blk t).view.set ↔ ∀ a : Fin 2, win1_5.index t a * S1x8192.size a ≤ (i a).val ∧ (i a).val < win1_5.index t a * S1x8192.size a + S1x8192.size a := by
  show i ∈ ((View.whole main_v9).slice (win1_5.rect t)).set ↔ _
  rw [View.set_slice_whole, Rect.mem_set_unit]
  exact Iff.rfl

/-- Every one of the 37 column blocks of the output row is some point's. -/
theorem idx_onto : ∀ (q1 : Fin 37), ∃ t : Fin cfg1.N, win1_5.index t = ![0, q1.val] :=
  (by decide +kernel : ∀ (q1 : Fin 37), ∃ t : Fin grid1.N, win1_5.index t = ![0, q1.val])

/-- The blocks cover the output row: column `e` lies in the block of the point whose column block is `e / 8192`. -/
theorem cover (i : S1x303104.Idx) :
    ∃ t : Fin cfg1.N, (cfg1.win 5).flush t = true ∧ i ∈ ((cfg1.win 5).blk t).view.set := by
  have hi0 : (i 0).val < 1 := (i 0).isLt
  have hi1 : (i 1).val < 303104 := (i 1).isLt
  obtain ⟨t, ht⟩ := idx_onto ⟨(i 1).val / 8192, by omega⟩
  have q0 : win1_5.index t (0 : Fin 2) = 0 := congrFun ht 0
  have q1 : win1_5.index t (1 : Fin 2) = (i 1).val / 8192 := congrFun ht 1
  refine ⟨t, flush1_5 t, ?_⟩
  rw [mem_blk]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 8192 ≤ (i 1).val ∧ (i 1).val < win1_5.index t (1 : Fin 2) * 8192 + 8192; omega

/-- THE ARRAY after all 37 points: `G` of the arrays as the region finds them. -/
theorem final (c : Dev nD) :
    (dat1 (F := Ideal) V c).arrAt 5 cfg1.N = G (V c main_v7) (V c main_v8) (V c main_arg5) (V c main_arg6) (V c main_arg7) :=
  (dat1 (F := Ideal) V c).arrAt_eq_of_cover 5 (G (V c main_v7) (V c main_v8) (V c main_arg5) (V c main_arg6) (V c main_arg7))
    (fun t _ => flushed_eq V c t) cover

theorem tail_out (c : Dev nD) (e : Fin 303104) :
    rd2 ((dat1 (F := Ideal) V c).arrAt 5 cfg1.N) (0 : Fin 1) e
      = (∑ j : Fin 64, rd2 (V c main_arg6) j (0 : Fin 1)
            * max ((rd2 (V c main_v7) e j + rd2 (V c main_v8) e j) + rd1 (V c main_arg5) j) 0)
        + rd1 (V c main_arg7) (0 : Fin 1) :=
  congrFun (final V c) (ix2 (0 : Fin 1) e)

end Cert.KernelIdeal.Tail

end
-- ==== Proof.HostEnds.lean ====
/-
  The host operations before the first launch and after the second, read at one element.

  Before: the two halves of W1 are the slices of its rows [0, 128) and [128, 256). After: the second launch's output
  row [1, 303104] is cut to its first 300000 columns and reshaped to a column [300000, 1], so the result at (e, 0) is
  the output row at (0, e).
-/
import proofs.«406294_j2688649527838_3_alg».proof.Proof.Gen.KernelIdeal.Frame
import Idealize.ShloMosaic.Lib.StableHlo.Run
import Idealize.ShloMosaic.Lib.ValueIdx
import Idealize.ShloMosaic.Lib.Pipeline.Value

noncomputable section

open Idealize.ShloMosaic Idealize.ShloMosaic.TcCoe Idealize.SL.Sem Idealize.ShloMosaic.StableHlo Idealize.ShloMosaic.ValueIdx

namespace Cert.KernelIdeal.Ends

open Cert.KernelIdeal Cert.KernelIdeal.Gen

variable {F : FTy → Type} [FloatOps F]

/-- The first half of W1 (its rows [0, 128)), read at (k, j), from any contents `V`. -/
theorem head_v0 (V : Valuation τ sig (Elt F)) (k : Fin 128) (j : Fin 64) :
    (after hostOps0 V (Proc.devRef .tc main_v0) : S128x64.Idx → Elt F .f32) (ix2 k j)
      = (V (Proc.devRef .tc main_arg4) : S256x64.Idx → Elt F .f32) (ix2 (⟨k.val, by omega⟩ : Fin 256) j) := by
  have hv : after hostOps0 V (Proc.devRef .tc main_v0)
      = extractStridedSlice S128x64 ![0, 0] (V (Proc.devRef .tc main_arg4)) slices_S256x64_S128x64_0_0 := by
    dsimp only [hostOps0]; after_results
  refine (congrArg (fun X : S128x64.Idx → Elt F .f32 => X (ix2 k j)) hv).trans ?_
  exact extractStridedSlice_apply _ _ _ _ _ (fun a => by
    match a with
    | ⟨0, _⟩ => show k.val = 0 + k.val; omega
    | ⟨1, _⟩ => show j.val = 0 + j.val; omega)

/-- The second half of W1 (its rows [128, 256)), read at (k, j), from any contents `V`. -/
theorem head_v1 (V : Valuation τ sig (Elt F)) (k : Fin 128) (j : Fin 64) :
    (after hostOps0 V (Proc.devRef .tc main_v1) : S128x64.Idx → Elt F .f32) (ix2 k j)
      = (V (Proc.devRef .tc main_arg4) : S256x64.Idx → Elt F .f32) (ix2 (⟨k.val + 128, by omega⟩ : Fin 256) j) := by
  have hv : after hostOps0 V (Proc.devRef .tc main_v1)
      = extractStridedSlice S128x64 ![128, 0] (V (Proc.devRef .tc main_arg4)) slices_S256x64_S128x64_128_0 := by
    dsimp only [hostOps0]; after_results
  refine (congrArg (fun X : S128x64.Idx → Elt F .f32 => X (ix2 k j)) hv).trans ?_
  exact extractStridedSlice_apply _ _ _ _ _ (fun a => by
    match a with
    | ⟨0, _⟩ => show k.val + 128 = 128 + k.val; omega
    | ⟨1, _⟩ => show j.val = 0 + j.val; omega)

/-- The result [300000, 1] after the last host stretch, read at (e, 0): the second launch's output row [1, 303104]
    at (0, e). -/
theorem tail_v12 (V : Valuation τ sig (Elt F)) (e : Fin 300000) :
    (after hostOps2 V (Proc.devRef .tc main_v12) : S300000x1.Idx → Elt F .f32) (ix2 e (0 : Fin 1))
      = (V (Proc.devRef .tc main_v9) : S1x303104.Idx → Elt F .f32) (ix2 (0 : Fin 1) (⟨e.val, by omega⟩ : Fin 303104)) := by
  have hv : after hostOps2 V (Proc.devRef .tc main_v12)
      = shapeCast S300000x1 (shapeCast S300000 (extractStridedSlice S1x300000 ![0, 0] (V (Proc.devRef .tc main_v9)) slices_S1x303104_S1x300000_0_0)
          shapeCasts_S1x300000_S300000) shapeCasts_S300000_S300000x1 := by
    dsimp only [hostOps2]; after_results; rfl
  refine (congrArg (fun X : S300000x1.Idx → Elt F .f32 => X (ix2 e (0 : Fin 1))) hv).trans ?_
  -- the column [300000, 1] at (e, 0) is the vector [300000] at e: the same row-major position e
  refine (shapeCast_apply _ _ (ix2 e (0 : Fin 1)) (ix1 e) (by
    rw [Shape.rowMajor_val_one, Shape.rowMajor_val_two]
    show e.val = e.val * 1 + 0
    omega)).trans ?_
  -- the vector [300000] at e is the row [1, 300000] at (0, e)
  refine (shapeCast_apply _ _ (ix1 e) (ix2 (0 : Fin 1) e) (by
    rw [Shape.rowMajor_val_one, Shape.rowMajor_val_two]
    show 0 * 300000 + e.val = e.val
    omega)).trans ?_
  -- and the row's first 300000 columns are the first 300000 columns of the [1, 303104] row
  exact extractStridedSlice_apply _ _ _ _ _ (fun a => by
    match a with
    | ⟨0, _⟩ => show (0 : Nat) = 0 + 0; rfl
    | ⟨1, _⟩ => show e.val = 0 + e.val; omega)

end Cert.KernelIdeal.Ends

end
-- ==== Proof.Closed.lean ====
/-
  The result as one function of the eight arguments.

  For edge e, with r = the source table's row its source id selects and r' likewise for the destination,
    hidden j = (Σ_{k<128} src[r, k] · W1[k, j] + Σ_{k<128} dst[r', k] · W1[128 + k, j]) + b1[j],
    logit e  = Σ_{j<64} W2[j, 0] · max(hidden j, 0) + b2[0].
  A row is selected the reference's way: a negative id has 100000 added, and the result is read signed and clamped
  into [0, 99999].
-/
import proofs.«406294_j2688649527838_3_alg».proof.Proof.Spec
import proofs.«406294_j2688649527838_3_alg».proof.Proof.RowIdx

noncomputable section

open scoped BigOperators
open Idealize.ShloMosaic Idealize.ShloMosaic.ValueIdx

namespace Cert.Closed

open Cert.Spec Cert.RowIdx

/-- The table row an id selects. -/
def rowOf (w : BitVec 32) : Fin 100000 := ⟨min (wrapW w).toInt.toNat (100000 - 1), by omega⟩

/-- Clipping a non-negative id first selects the same row. -/
theorem rowOf_clip (w : BitVec 32) (hw : 0 ≤ w.toInt) : rowOf (clipW w) = rowOf w :=
  Fin.ext (row_eq w hw)

/-- The hidden layer before the rectifier, at unit j, for an edge whose ids are ws and wd. -/
def hidden (src dst : (⟨2, ![100000, 128]⟩ : Shape).Idx → EReal) (W1 : (⟨2, ![256, 64]⟩ : Shape).Idx → EReal)
    (b1 : (⟨1, ![64]⟩ : Shape).Idx → EReal) (ws wd : BitVec 32) (j : Fin 64) : EReal :=
  ((∑ k : Fin 128, rd2 src (rowOf ws) k * rd2 W1 (⟨k.val, by omega⟩ : Fin 256) j)
    + (∑ k : Fin 128, rd2 dst (rowOf wd) k * rd2 W1 (⟨k.val + 128, by omega⟩ : Fin 256) j)) + rd1 b1 j

/-- The edge's logit. -/
def logit (src dst : (⟨2, ![100000, 128]⟩ : Shape).Idx → EReal) (ids idd : IVec ⟨1, ![300000]⟩ 32)
    (W1 : (⟨2, ![256, 64]⟩ : Shape).Idx → EReal) (b1 : (⟨1, ![64]⟩ : Shape).Idx → EReal)
    (W2 : (⟨2, ![64, 1]⟩ : Shape).Idx → EReal) (b2 : (⟨1, ![1]⟩ : Shape).Idx → EReal) (e : Fin 300000) : EReal :=
  (∑ j : Fin 64, rd2 W2 j (0 : Fin 1) * max (hidden src dst W1 b1 (ids (ix1 e)) (idd (ix1 e)) j) 0) + rd1 b2 (0 : Fin 1)

/-- The result array [300000, 1]. -/
def G (src dst : (⟨2, ![100000, 128]⟩ : Shape).Idx → EReal) (ids idd : IVec ⟨1, ![300000]⟩ 32)
    (W1 : (⟨2, ![256, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![300000, 1]⟩ : Shape).Idx → EReal :=
  fun i => logit src dst ids idd W1 b1 W2 b2 ⟨(i 0).val, idx2_lt0 i⟩

end Cert.Closed

end
-- ==== Proof.KValue.lean ====
/-
  The kernel program's result buffer is the closed form `G` of its arguments, when no id is negative.

  Read from the end: the result [300000, 1] at (e, 0) is the second launch's output row at (0, e); that is
  Σ_j W2[j,0] · max((gs[e,j] + gd[e,j]) + b1[j], 0) + b2[0] of the two gathered arrays; gs[e, j] is the first launch's
  first output at (row, j), the row being the source id clipped, wrapped, read signed and clamped, which for a
  non-negative id is the row the reference reads; and the first launch's output at (row, j) is
  Σ_k src[row, k] · W1[k, j], the second's Σ_k dst[row, k] · W1[128 + k, j].
-/
import proofs.«406294_j2688649527838_3_alg».proof.Proof.Chain
import proofs.«406294_j2688649527838_3_alg».proof.Proof.ProjValue
import proofs.«406294_j2688649527838_3_alg».proof.Proof.TailValue
import proofs.«406294_j2688649527838_3_alg».proof.Proof.HostEnds
import proofs.«406294_j2688649527838_3_alg».proof.Proof.Closed

noncomputable section

open scoped BigOperators
open Idealize.ShloMosaic Idealize.ShloMosaic.TcCoe Idealize.SL.Sem Idealize.ShloMosaic.StableHlo Idealize.ShloMosaic.ValueIdx

namespace Cert.KernelIdeal.KValue

open Cert.KernelIdeal Cert.KernelIdeal.Gen Cert.Spec Cert.Closed Cert.RowIdx Cert.KernelIdeal.Take Cert.KernelIdeal.Chain

variable (m : (ℓ : Loc nD τ sig) → Buf (Elt Ideal) ℓ) (ρ : Dev nD → PrngReg)

/-- The first gathered array at (e, j): the source table's selected row against the first half of W1. -/
theorem gathered_src (c : Dev nD)
    (hs : ∀ e : Fin 300000, 0 ≤ ((m ((c : Thread nD τ).loc main_arg2) : IVec S300000 32) (ix1 e)).toInt)
    (e : Fin 300000) (j : Fin 64) :
    rd2 (V12 m ρ c main_v7) (⟨e.val, by omega⟩ : Fin 303104) j
      = ∑ k : Fin 128, rd2 (m ((c : Thread nD τ).loc main_arg0))
            (rowOf ((m ((c : Thread nD τ).loc main_arg2) : IVec S300000 32) (ix1 e))) k
          * rd2 (m ((c : Thread nD τ).loc main_arg4)) (⟨k.val, by omega⟩ : Fin 256) j := by
  have h7 : (V12 m ρ c main_v7 : Vec Ideal S303104x64 .f32)
      = takeRows (W2 m ρ c (Proc.devRef .tc main_v2_0) : Vec Ideal S100000x64 .f32)
          (m ((c : Thread nD τ).loc main_arg2) : IVec S300000 32) :=
    (W12_v7 m ρ c).trans (by rw [W2_arg2])
  show (V12 m ρ c main_v7 : Vec Ideal S303104x64 .f32) (ix2 (⟨e.val, by omega⟩ : Fin 303104) j) = _
  rw [h7, takeRows_apply _ _ hs e j, W2_v2_0]
  refine (Proj.proj_src (V1 m ρ) c (rowOf (clipW ((m ((c : Thread nD τ).loc main_arg2) : IVec S300000 32) (ix1 e)))) j).trans ?_
  rw [rowOf_clip _ (hs e)]
  refine Finset.sum_congr rfl fun k _ => ?_
  rw [V1_arg0]
  exact congrArg (fun x => rd2 (m ((c : Thread nD τ).loc main_arg0))
    (rowOf ((m ((c : Thread nD τ).loc main_arg2) : IVec S300000 32) (ix1 e))) k * x) (Ends.head_v0 (W0 m ρ c) k j)

/-- The second gathered array at (e, j): the destination table's selected row against the second half of W1. -/
theorem gathered_dst (c : Dev nD)
    (hd : ∀ e : Fin 300000, 0 ≤ ((m ((c : Thread nD τ).loc main_arg3) : IVec S300000 32) (ix1 e)).toInt)
    (e : Fin 300000) (j : Fin 64) :
    rd2 (V12 m ρ c main_v8) (⟨e.val, by omega⟩ : Fin 303104) j
      = ∑ k : Fin 128, rd2 (m ((c : Thread nD τ).loc main_arg1))
            (rowOf ((m ((c : Thread nD τ).loc main_arg3) : IVec S300000 32) (ix1 e))) k
          * rd2 (m ((c : Thread nD τ).loc main_arg4)) (⟨k.val + 128, by omega⟩ : Fin 256) j := by
  have h8 : (V12 m ρ c main_v8 : Vec Ideal S303104x64 .f32)
      = takeRows (W2 m ρ c (Proc.devRef .tc main_v2_1) : Vec Ideal S100000x64 .f32)
          (m ((c : Thread nD τ).loc main_arg3) : IVec S300000 32) :=
    (W12_v8 m ρ c).trans (by rw [W2_arg3])
  show (V12 m ρ c main_v8 : Vec Ideal S303104x64 .f32) (ix2 (⟨e.val, by omega⟩ : Fin 303104) j) = _
  rw [h8, takeRows_apply _ _ hd e j, W2_v2_1]
  refine (Proj.proj_dst (V1 m ρ) c (rowOf (clipW ((m ((c : Thread nD τ).loc main_arg3) : IVec S300000 32) (ix1 e)))) j).trans ?_
  rw [rowOf_clip _ (hd e)]
  refine Finset.sum_congr rfl fun k _ => ?_
  rw [V1_arg1]
  exact congrArg (fun x => rd2 (m ((c : Thread nD τ).loc main_arg1))
    (rowOf ((m ((c : Thread nD τ).loc main_arg3) : IVec S300000 32) (ix1 e))) k * x) (Ends.head_v1 (W0 m ρ c) k j)

/-- THE RESULT: the program's result buffer, at the last boundary's contents, is the closed form of the arguments. -/
theorem result_eq (c : Dev nD)
    (hs : ∀ e : Fin 300000, 0 ≤ ((m ((c : Thread nD τ).loc main_arg2) : IVec S300000 32) (ix1 e)).toInt)
    (hd : ∀ e : Fin 300000, 0 ≤ ((m ((c : Thread nD τ).loc main_arg3) : IVec S300000 32) (ix1 e)).toInt) :
    (W14 m ρ c (Proc.devRef .tc main_v12) : S300000x1.Idx → EReal)
      = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  funext i
  obtain ⟨e, z, rfl⟩ : ∃ (e : Fin 300000) (z : Fin 1), i = ix2 e z := ⟨i 0, i 1, eq_ix2 i⟩
  obtain rfl : z = 0 := Subsingleton.elim _ _
  refine (Ends.tail_v12 (W13 m ρ c) e).trans ?_
  rw [show W13 m ρ c (Proc.devRef .tc main_v9) = (dat1 (V12 m ρ) c).arrAt 5 cfg1.N from W13_arr m ρ c 5]
  refine (Tail.tail_out (V12 m ρ) c (⟨e.val, by omega⟩ : Fin 303104)).trans ?_
  show _ = logit _ _ _ _ _ _ _ _ e
  unfold logit Closed.hidden
  have h5 : V12 m ρ c main_arg5 = m ((c : Thread nD τ).loc main_arg5) := (W12_arg5 m ρ c).trans (W2_arg5 m ρ c)
  have h6 : V12 m ρ c main_arg6 = m ((c : Thread nD τ).loc main_arg6) := (W12_arg6 m ρ c).trans (W2_arg6 m ρ c)
  have h7 : V12 m ρ c main_arg7 = m ((c : Thread nD τ).loc main_arg7) := (W12_arg7 m ρ c).trans (W2_arg7 m ρ c)
  rw [h5, h6, h7]
  refine congrArg (· + rd1 (m ((c : Thread nD τ).loc main_arg7)) (0 : Fin 1)) (Finset.sum_congr rfl fun j _ => ?_)
  rw [gathered_src m ρ c hs e j, gathered_dst m ρ c hd e j]

end Cert.KernelIdeal.KValue

end
-- ==== Proof.RefValue.lean ====
/-
  The reference program's result is the closed form `Cert.Closed.G`.

  Stage by stage: a negative id has 100000 added; the gather reads the table's row at that start index, read signed
  and clamped into [0, 99999]; the two gathered rows are joined along the columns, so column k of the join is the
  source row's column k for k < 128 and the destination row's column k - 128 otherwise; the contraction over the 256
  joined columns splits into its two halves; bias, maximum with 0, the contraction against W2's column (factors
  commuted) and b2 follow as printed.
-/
import proofs.«406294_j2688649527838_3_alg».proof.Proof.Gen.ReferenceIdeal.Run
import proofs.«406294_j2688649527838_3_alg».proof.Proof.Gen.ReferenceIdeal.Read
import proofs.«406294_j2688649527838_3_alg».proof.Proof.Closed
import proofs.«406294_j2688649527838_3_alg».proof.Proof.LibScatterRows
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec Cert.Closed Cert.RowIdx

/-! ## The row an edge's id selects -/

/-- The start-index column of the first gather at position e is the source id with a negative value wrapped. -/
theorem start_src (x2 : (⟨S300000, .i32⟩ : BufTy).Contents (Elt Ideal)) (e : Fin 300000) :
    val_main_v5 (F := Ideal) x2 (StableHlo.Predicate.ixP e) = wrapW (x2 (ix1 e)) := by
  have hi : idx_main_v5 (StableHlo.Predicate.ixP e) = ix1 e := funext fun a => by match a with | ⟨0, _⟩ => rfl
  rw [val_main_v5_apply, hi, val_main_v4_apply, val_main_v1_apply, val_main_v3_apply, val_main_v0_apply, val_main_v2_apply]
  rfl

/-- The start-index column of the second gather at position e is the destination id, wrapped likewise. -/
theorem start_dst (x3 : (⟨S300000, .i32⟩ : BufTy).Contents (Elt Ideal)) (e : Fin 300000) :
    val_main_v12 (F := Ideal) x3 (StableHlo.Predicate.ixP e) = wrapW (x3 (ix1 e)) := by
  have hi : idx_main_v12 (StableHlo.Predicate.ixP e) = ix1 e := funext fun a => by match a with | ⟨0, _⟩ => rfl
  rw [val_main_v12_apply, hi, val_main_v11_apply, val_main_v8_apply, val_main_v10_apply, val_main_v7_apply, val_main_v9_apply]
  rfl

/-! ## The gathered rows and their concatenation -/

/-- The first gather at (e, k): column k of the source table's row selected by edge e's source id. -/
theorem gather_src (x0 : (⟨S100000x128, .f32⟩ : BufTy).Contents (Elt Ideal)) (x2 : (⟨S300000, .i32⟩ : BufTy).Contents (Elt Ideal)) (e : Fin 300000) (k : Fin 128) :
    val_main_v6 (F := Ideal) x0 x2 (ix2 e k) = rd2 x0 (rowOf (x2 (ix1 e))) k := by
  unfold val_main_v6
  rw [Cert.ScatterRows.gather_rows gather_S100000x128_S300000x1_S300000x128_1_0_n_n_0_1_1128 rfl rfl rfl rfl rfl rfl x0 _ e k (by decide)]
  refine congrArg (fun r : Fin 100000 => x0 (ix2 r k)) (Fin.ext ?_)
  show min (val_main_v5 (F := Ideal) x2 (StableHlo.Predicate.ixP e)).toInt.toNat (100000 - 1) = min (wrapW (x2 (ix1 e))).toInt.toNat (100000 - 1)
  rw [start_src]

/-- The second gather at (e, k): column k of the destination table's row selected by edge e's destination id. -/
theorem gather_dst (x1 : (⟨S100000x128, .f32⟩ : BufTy).Contents (Elt Ideal)) (x3 : (⟨S300000, .i32⟩ : BufTy).Contents (Elt Ideal)) (e : Fin 300000) (k : Fin 128) :
    val_main_v13 (F := Ideal) x1 x3 (ix2 e k) = rd2 x1 (rowOf (x3 (ix1 e))) k := by
  unfold val_main_v13
  rw [Cert.ScatterRows.gather_rows gather_S100000x128_S300000x1_S300000x128_1_0_n_n_0_1_1128 rfl rfl rfl rfl rfl rfl x1 _ e k (by decide)]
  refine congrArg (fun r : Fin 100000 => x1 (ix2 r k)) (Fin.ext ?_)
  show min (val_main_v12 (F := Ideal) x3 (StableHlo.Predicate.ixP e)).toInt.toNat (100000 - 1) = min (wrapW (x3 (ix1 e))).toInt.toNat (100000 - 1)
  rw [start_dst]

/-- The first 128 columns of the concatenation are the source rows. -/
theorem concat_left (x0 x1 : (⟨S100000x128, .f32⟩ : BufTy).Contents (Elt Ideal)) (x2 x3 : (⟨S300000, .i32⟩ : BufTy).Contents (Elt Ideal)) (e : Fin 300000) (k : Fin 128) :
    val_main_v14 (F := Ideal) x0 x1 x2 x3 (ix2 e (⟨k.val, by omega⟩ : Fin 256)) = rd2 x0 (rowOf (x2 (ix1 e))) k := by
  unfold val_main_v14
  rw [concatenate_pair_apply_left (1 : Fin S300000x256.rank) _ _ concatenates_S300000x128_S300000x128_S300000x256_d1 (ix2 e (⟨k.val, by omega⟩ : Fin 256)) rfl (ix2 e k)
    (fun b => by match b with | ⟨0, _⟩ => rfl | ⟨1, _⟩ => rfl)]
  exact gather_src x0 x2 e k

/-- The last 128 columns of the concatenation are the destination rows. -/
theorem concat_right (x0 x1 : (⟨S100000x128, .f32⟩ : BufTy).Contents (Elt Ideal)) (x2 x3 : (⟨S300000, .i32⟩ : BufTy).Contents (Elt Ideal)) (e : Fin 300000) (k : Fin 128) :
    val_main_v14 (F := Ideal) x0 x1 x2 x3 (ix2 e (⟨k.val + 128, by omega⟩ : Fin 256)) = rd2 x1 (rowOf (x3 (ix1 e))) k := by
  unfold val_main_v14
  rw [concatenate_pair_apply_right (1 : Fin S300000x256.rank) _ _ concatenates_S300000x128_S300000x128_S300000x256_d1 (ix2 e (⟨k.val + 128, by omega⟩ : Fin 256)) rfl rfl (ix2 e k)
    (fun b hb => by match b with | ⟨0, _⟩ => rfl | ⟨1, _⟩ => exact absurd rfl hb) rfl]
  exact gather_dst x1 x3 e k

/-! ## The hidden layer -/

/-- The first product at (e, j): its 256 contraction positions are the 128 columns of the selected source row against
    the upper half of the weight matrix, then the 128 columns of the selected destination row against the lower half. -/
theorem dot1_apply (x0 x1 : (⟨S100000x128, .f32⟩ : BufTy).Contents (Elt Ideal)) (x2 x3 : (⟨S300000, .i32⟩ : BufTy).Contents (Elt Ideal)) (x4 : (⟨S256x64, .f32⟩ : BufTy).Contents (Elt Ideal)) (e : Fin 300000) (j : Fin 64) :
    val_main_v15 (F := Ideal) x0 x1 x2 x3 x4 (ix2 e j)
      = (∑ k : Fin 128, rd2 x0 (rowOf (x2 (ix1 e))) k * rd2 x4 (⟨k.val, by omega⟩ : Fin 256) j)
        + (∑ k : Fin 128, rd2 x1 (rowOf (x3 (ix1 e))) k * rd2 x4 (⟨k.val + 128, by omega⟩ : Fin 256) j) := by
  have hl : ∀ k : Fin 256, lidx_main_v15 (ix2 e j) k = ix2 e k := fun k => funext fun a => by
    match a with | ⟨0, _⟩ => rfl | ⟨1, _⟩ => rfl
  have hr : ∀ k : Fin 256, ridx_main_v15 (ix2 e j) k = ix2 k j := fun k => funext fun a => by
    match a with | ⟨0, _⟩ => rfl | ⟨1, _⟩ => rfl
  rw [val_main_v15_apply, sum_split]
  refine congrArg₂ (· + ·) (Finset.sum_congr rfl fun k _ => ?_) (Finset.sum_congr rfl fun k _ => ?_)
  · show val_main_v14 (F := Ideal) x0 x1 x2 x3 (lidx_main_v15 (ix2 e j) (⟨k.val, by omega⟩ : Fin 256))
        * x4 (ridx_main_v15 (ix2 e j) (⟨k.val, by omega⟩ : Fin 256)) = _
    rw [hl, hr, concat_left]
  · show val_main_v14 (F := Ideal) x0 x1 x2 x3 (lidx_main_v15 (ix2 e j) (⟨k.val + 128, by omega⟩ : Fin 256))
        * x4 (ridx_main_v15 (ix2 e j) (⟨k.val + 128, by omega⟩ : Fin 256)) = _
    rw [hl, hr, concat_right]

/-- With the first bias added, the stage before the rectifier at (e, j) is the hidden unit j of edge e. -/
theorem hidden_eq (x0 x1 : (⟨S100000x128, .f32⟩ : BufTy).Contents (Elt Ideal)) (x2 x3 : (⟨S300000, .i32⟩ : BufTy).Contents (Elt Ideal)) (x4 : (⟨S256x64, .f32⟩ : BufTy).Contents (Elt Ideal)) (x5 : (⟨S64, .f32⟩ : BufTy).Contents (Elt Ideal)) (e : Fin 300000) (j : Fin 64) :
    val_main_v18 (F := Ideal) x0 x1 x2 x3 x4 x5 (ix2 e j) = hidden x0 x1 x4 x5 (x2 (ix1 e)) (x3 (ix1 e)) j := by
  have h5 : idx_main_v16 (idx_main_v17 (ix2 e j)) = ix1 j := funext fun a => by match a with | ⟨0, _⟩ => rfl
  rw [val_main_v18_apply, dot1_apply, val_main_v17_apply, val_main_v16_apply, h5]
  rfl

/-- The rectifier is the larger of the hidden unit and zero. -/
theorem relu_eq (x0 x1 : (⟨S100000x128, .f32⟩ : BufTy).Contents (Elt Ideal)) (x2 x3 : (⟨S300000, .i32⟩ : BufTy).Contents (Elt Ideal)) (x4 : (⟨S256x64, .f32⟩ : BufTy).Contents (Elt Ideal)) (x5 : (⟨S64, .f32⟩ : BufTy).Contents (Elt Ideal)) (e : Fin 300000) (j : Fin 64) :
    val_main_v19 (F := Ideal) x0 x1 x2 x3 x4 x5 (ix2 e j) = max (hidden x0 x1 x4 x5 (x2 (ix1 e)) (x3 (ix1 e)) j) 0 := by
  rw [val_main_v19_apply, hidden_eq, val_main_call0_v0_apply, val_main_call0_cst_apply]
  show max _ (Ideal.ofBits .f32 0x00000000#32) = _
  rw [Ideal.ofBits_zero_f32]

/-! ## The result -/

theorem ref_eq_G (x0 x1 : (⟨S100000x128, .f32⟩ : BufTy).Contents (Elt Ideal)) (x2 x3 : (⟨S300000, .i32⟩ : BufTy).Contents (Elt Ideal))
    (x4 : (⟨S256x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    val_main_v23 (F := Ideal) x0 x1 x2 x3 x4 x5 x6 x7 = G x0 x1 x2 x3 x4 x5 x6 x7 := by
  funext i
  obtain ⟨e, z, rfl⟩ : ∃ (e : Fin 300000) (z : Fin 1), i = ix2 e z := ⟨i 0, i 1, eq_ix2 i⟩
  obtain rfl : z = 0 := Subsingleton.elim _ _
  have hl : ∀ j : Fin 64, lidx_main_v20 (ix2 e (0 : Fin 1)) j = ix2 e j := fun j => funext fun a => by
    match a with | ⟨0, _⟩ => rfl | ⟨1, _⟩ => rfl
  have hr : ∀ j : Fin 64, ridx_main_v20 (ix2 e (0 : Fin 1)) j = ix2 j (0 : Fin 1) := fun j => funext fun a => by
    match a with | ⟨0, _⟩ => rfl | ⟨1, _⟩ => rfl
  have h7 : idx_main_v21 (idx_main_v22 (ix2 e (0 : Fin 1))) = ix1 (0 : Fin 1) := funext fun a => by
    match a with | ⟨0, _⟩ => rfl
  rw [val_main_v23_apply, val_main_v20_apply, val_main_v22_apply, val_main_v21_apply, h7]
  show (∑ j : Fin 64, val_main_v19 (F := Ideal) x0 x1 x2 x3 x4 x5 (lidx_main_v20 (ix2 e (0 : Fin 1)) j)
        * x6 (ridx_main_v20 (ix2 e (0 : Fin 1)) j)) + x7 (ix1 (0 : Fin 1))
    = (∑ j : Fin 64, rd2 x6 j (0 : Fin 1) * max (hidden x0 x1 x4 x5 (x2 (ix1 e)) (x3 (ix1 e)) j) 0) + rd1 x7 (0 : Fin 1)
  refine congrArg (· + _) (Finset.sum_congr rfl fun j _ => ?_)
  rw [hl, hr, relu_eq]
  exact mul_comm _ _

end Cert.ReferenceIdeal.RefValue

end
-- ==== Proof.PreDecode.lean ====
/-
  What the precondition says of the two id arrays.

  The precondition is a conjunction of eight "all entries satisfy" tests; its last two are "every source id ≥ 0" and
  "every destination id ≥ 0" as signed comparisons. If the conjunction is 1, each of the two reductions is 1, so the
  comparison is 1 at every entry, which says the entry read signed is not negative.
-/
import proofs.«406294_j2688649527838_3_alg».proof.Pre_finite_inputs
import proofs.«406294_j2688649527838_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate
import proofs.«406294_j2688649527838_3_alg».proof.Proof.RowIdx

noncomputable section

open Idealize.ShloMosaic Idealize.ShloMosaic.ValueIdx

namespace Cert.PreDecode

open Cert.Pre_finite_inputs

/-- The scalar shape has one index. -/
instance subsingleton_scalar_idx : Subsingleton S_.Idx := ⟨fun a b => funext fun d => d.elim0⟩

/-- A conjunction of three one-bit scalars that is 1 has its last two conjuncts 1. -/
theorem last_two_of_and (p x y : IVec S_ 1) (h : andi (andi p x) y ix0 = 1#1) : x ix0 = 1#1 ∧ y ix0 = 1#1 := by
  have h1 : IntOp.andi (IntOp.andi (p ix0) (x ix0)) (y ix0) = 1#1 := h
  obtain ⟨h2, hy⟩ := IntOp.andi_eq_one.1 h1
  exact ⟨(IntOp.andi_eq_one.1 h2).2, hy⟩

/-- An array of ids whose every entry compares "≥ 0" (signed) against the broadcast zero, all of them reduced by
    "and" to 1, has every entry, read signed, not negative. -/
theorem nonneg_of_all_sge [Cert.Pre_finite_inputs.Facts] (a : IVec S300000 32)
    (h : Host.reduce IntOp.andi (cmpi .sge a (broadcastInDim S300000 ![] Facts.bcast_S_S300000 (constantI S_ 32 0#32)))
      (constantI S_ 1 1#1) Facts.reducesTo_S300000_S_d0 Facts.h_S_ ix0 = 1#1) (e : Fin 300000) : 0 ≤ (a (ix1 e)).toInt := by
  have h1 := Host.reduce_andi_all _ _ Facts.reducesTo_S300000_S_d0 Facts.h_S_ ix0 h (ix1 e)
  have h2 : IntOp.cmpi .sge (a (ix1 e)) (broadcastInDim S300000 ![] Facts.bcast_S_S300000 (constantI S_ 32 0#32) (ix1 e)) = 1#1 := h1
  rw [StableHlo.Predicate.bcast_scalar Facts.bcast_S_S300000 Facts.h_S_] at h2
  exact Cert.RowIdx.nonneg_of_sge h2

theorem ids_nonneg {F : FTy → Type} [FloatOps F] [Cert.Pre_finite_inputs.Facts]
    (a0 a1 : FVec F S100000x128 .f32) (a2 a3 : IVec S300000 32) (a4 : FVec F S256x64 .f32) (a5 : FVec F S64 .f32)
    (a6 : FVec F S64x1 .f32) (a7 : FVec F S1 .f32)
    (h : fn (F := F) a0 a1 a2 a3 a4 a5 a6 a7 = fun _ => 1#1) :
    (∀ e : Fin 300000, 0 ≤ (a2 (ix1 e)).toInt) ∧ (∀ e : Fin 300000, 0 ≤ (a3 (ix1 e)).toInt) := by
  have h0 := congrFun h ValueIdx.ix0
  dsimp only [fn, fn_part1, fn_part2] at h0
  obtain ⟨h31, h35⟩ := last_two_of_and _ _ _ h0
  exact ⟨nonneg_of_all_sge a2 h31, nonneg_of_all_sge a3 h35⟩

end Cert.PreDecode

end
-- ==== Proof.lean ====
/-
  The kernel program against its reference, over the extended reals.

  Both compute, for each of 300000 edges, logit e = Σ_j W2[j,0] · max(hidden e j, 0) + b2[0] with
  hidden e j = Σ_k concat(src[r e], dst[r' e])[k] · W1[k, j] + b1[j]. The reference gathers the two 128-wide rows, joins
  them and contracts the 256 columns at once; the kernel program first projects each whole table through its half of
  W1 (one launch), gathers the projected rows, and adds, rectifies and contracts with W2 in a second launch whose
  output is a row, sliced and reshaped back. A sum over 256 terms is the sum of its halves, and a product of
  extended reals commutes: no finiteness is used. The two programs select rows differently only at negative ids
  (the reference counts a negative id from the end, the kernel program clips it to 0), which the precondition's two
  added conjuncts exclude; at ids past the end both read the last row.

  The claims: the two kernel frames are the generated ones; the reference's frame is its generated run; the
  idealization rewrote nothing; and both runs end with the result at the closed form `Cert.Closed.G` of the
  arguments (`KValue.result_eq` over the run `KRun.run_result`; `RefValue.ref_eq_G` over the generated reference run).
-/
import proofs.«406294_j2688649527838_3_alg».proof.Defs
import proofs.«406294_j2688649527838_3_alg».proof.Proof.Gen.Kernel
import proofs.«406294_j2688649527838_3_alg».proof.Proof.Gen.Kernel.Skeleton
import proofs.«406294_j2688649527838_3_alg».proof.Proof.Gen.Kernel.Launch
import proofs.«406294_j2688649527838_3_alg».proof.Proof.Gen.Kernel.Points
import proofs.«406294_j2688649527838_3_alg».proof.Proof.Gen.Kernel.Frame
import proofs.«406294_j2688649527838_3_alg».proof.Proof.Gen.KernelIdeal
import proofs.«406294_j2688649527838_3_alg».proof.Proof.Gen.KernelIdeal.Skeleton
import proofs.«406294_j2688649527838_3_alg».proof.Proof.Gen.KernelIdeal.Launch
import proofs.«406294_j2688649527838_3_alg».proof.Proof.Gen.KernelIdeal.Points
import proofs.«406294_j2688649527838_3_alg».proof.Proof.Gen.KernelIdeal.Frame
import proofs.«406294_j2688649527838_3_alg».proof.Proof.Gen.ReferenceIdeal
import proofs.«406294_j2688649527838_3_alg».proof.Proof.Gen.ReferenceIdeal.Run
import proofs.«406294_j2688649527838_3_alg».proof.Proof.Gen.ReferenceIdeal.Read
import proofs.«406294_j2688649527838_3_alg».proof.Proof.Gen.Pre_finite_inputs
import proofs.«406294_j2688649527838_3_alg».proof.Proof.KRun
import proofs.«406294_j2688649527838_3_alg».proof.Proof.KValue
import proofs.«406294_j2688649527838_3_alg».proof.Proof.RefValue
import proofs.«406294_j2688649527838_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the closed form of the arguments; the kernel program's needs the ids
    non-negative, which the precondition says. -/
theorem algebraic : Cert.algebraic_KernelIdeal_ReferenceIdeal := by
  intro m ρ m' ρ' hpre hagree
  have hids := fun c : Dev Cert.KernelIdeal.nD => Cert.PreDecode.ids_nonneg (F := Ideal) _ _ _ _ _ _ _ _ (hpre c)
  refine ⟨fun c => Cert.Closed.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.result_eq m ρ c (hids c).1 (hids c).2), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, Cert.ReferenceIdeal.RefValue.ref_eq_G,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
